-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x117 : Shape := ⟨2, ![500000, 117]⟩
abbrev S2000000 : Shape := ⟨1, ![2000000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S500000x117 : S_.BroadcastsInDim S500000x117 (![] : Fin 0 → Fin S500000x117.rank)
  reducesTo_S500000x117_S_d0_1 : S500000x117.ReducesTo [0, 1] S_
  h_S_ : 0 < S_.numel
  bcast_S_S117x128 : S_.BroadcastsInDim S117x128 (![] : Fin 0 → Fin S117x128.rank)
  reducesTo_S117x128_S_d0_1 : S117x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128x128 .f32) (main_arg7 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  main_v28

def fn {F : FTy → Type} [FloatOps F] (main_arg0 : FVec F S500000x117 .f32) (main_arg1 : IVec S2000000 32) (main_arg2 : IVec S2000000 32) (main_arg3 : FVec F S117x128 .f32) (main_arg4 : FVec F S128 .f32) (main_arg5 : FVec F S3x128x128 .f32) (main_arg6 : FVec F S3x128x128 .f32) (main_arg7 : FVec F S3x128 .f32) : IVec S_ 1 :=
  let main_v0 : FVec F S500000x117 .f32 := Host.absf main_arg0
  let main_cst : FVec F S_ .f32 := constant S_ .f32 0x7F800000#32
  let main_v1 : FVec F S500000x117 .f32 := broadcastInDim S500000x117 ![] bcast_S_S500000x117 main_cst
  let main_v2 : IVec S500000x117 1 := cmpf .olt main_v0 main_v1
  let main_c : IVec S_ 1 := constantI S_ 1 1#1
  let main_v3 : IVec S_ 1 := (fun x v => Host.reduce IntOp.andi x v reducesTo_S500000x117_S_d0_1 h_S_) main_v2 main_c
  let main_v4 : FVec F S117x128 .f32 := Host.absf main_arg3
  let main_cst_0 : FVec F S_ .f32 := constant S_ .f32 0x7F800000#32
  let main_v5 : FVec F S117x128 .f32 := broadcastInDim S117x128 ![] bcast_S_S117x128 main_cst_0
  let main_v6 : IVec S117x128 1 := cmpf .olt main_v4 main_v5
  let main_c_1 : IVec S_ 1 := constantI S_ 1 1#1
  let main_v7 : IVec S_ 1 := (fun x v => Host.reduce IntOp.andi x v reducesTo_S117x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_v13 main_v16
-- ==== Kernel.lean ====
abbrev S500000x117 : Shape := ⟨2, ![500000, 117]⟩
abbrev S2000000 : Shape := ⟨1, ![2000000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S500000x128 : Shape := ⟨2, ![500000, 128]⟩
abbrev S5000x117 : Shape := ⟨2, ![5000, 117]⟩
abbrev S5000x128 : Shape := ⟨2, ![5000, 128]⟩
abbrev S1x128 : Shape := ⟨2, ![1, 128]⟩
abbrev S_ : Shape := ⟨0, ![]⟩
abbrev S500000 : Shape := ⟨1, ![500000]⟩
abbrev S2000000x1 : Shape := ⟨2, ![2000000, 1]⟩
abbrev S500000x1 : Shape := ⟨2, ![500000, 1]⟩
abbrev S2000000x128 : Shape := ⟨2, ![2000000, 128]⟩
abbrev S1x128x128 : Shape := ⟨3, ![1, 128, 128]⟩
abbrev S128x128 : Shape := ⟨2, ![128, 128]⟩
abbrev S5000x1 : Shape := ⟨2, ![5000, 1]⟩

abbrev nBuf : Space → Nat
  | .hbm => 82
  | .vmem => 39
  | .smem => 0
  | _ => 0

abbrev bufTy : (tb : Table) → Fin (tcTables nBuf tb) → BufTy
  | .hbm, ⟨0, _⟩ => ⟨S500000x117, .f32⟩
  | .hbm, ⟨1, _⟩ => ⟨S2000000, .i32⟩
  | .hbm, ⟨2, _⟩ => ⟨S2000000, .i32⟩
  | .hbm, ⟨3, _⟩ => ⟨S117x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S500000x128, .f32⟩
  | .hbm, ⟨9, _⟩ => ⟨S_, .f32⟩
  | .hbm, ⟨10, _⟩ => ⟨S2000000, .f32⟩
  | .hbm, ⟨11, _⟩ => ⟨S_, .f32⟩
  | .hbm, ⟨12, _⟩ => ⟨S500000, .f32⟩
  | .hbm, ⟨13, _⟩ => ⟨S2000000x1, .i32⟩
  | .hbm, ⟨14, _⟩ => ⟨S500000, .f32⟩
  | .hbm, ⟨15, _⟩ => ⟨S_, .f32⟩
  | .hbm, ⟨16, _⟩ => ⟨S500000, .f32⟩
  | .hbm, ⟨17, _⟩ => ⟨S500000, .f32⟩
  | .hbm, ⟨18, _⟩ => ⟨S_, .f32⟩
  | .hbm, ⟨19, _⟩ => ⟨S500000, .f32⟩
  | .hbm, ⟨20, _⟩ => ⟨S500000, .f32⟩
  | .hbm, ⟨21, _⟩ => ⟨S500000x1, .f32⟩
  | .hbm, ⟨22, _⟩ => ⟨S_, .i32⟩
  | .hbm, ⟨23, _⟩ => ⟨S2000000, .i32⟩
  | .hbm, ⟨24, _⟩ => ⟨S2000000, .i1⟩
  | .hbm, ⟨25, _⟩ => ⟨S_, .i32⟩
  | .hbm, ⟨26, _⟩ => ⟨S2000000, .i32⟩
  | .hbm, ⟨27, _⟩ => ⟨S2000000, .i32⟩
  | .hbm, ⟨28, _⟩ => ⟨S2000000, .i32⟩
  | .hbm, ⟨29, _⟩ => ⟨S2000000x1, .i32⟩
  | .hbm, ⟨30, _⟩ => ⟨S2000000x128, .f32⟩
  | .hbm, ⟨31, _⟩ => ⟨S_, .f32⟩
  | .hbm, ⟨32, _⟩ => ⟨S500000x128, .f32⟩
  | .hbm, ⟨33, _⟩ => ⟨S2000000x1, .i32⟩
  | .hbm, ⟨34, _⟩ => ⟨S500000x128, .f32⟩
  | .hbm, ⟨35, _⟩ => ⟨S1x128x128, .f32⟩
  | .hbm, ⟨36, _⟩ => ⟨S128x128, .f32⟩
  | .hbm, ⟨37, _⟩ => ⟨S1x128x128, .f32⟩
  | .hbm, ⟨38, _⟩ => ⟨S128x128, .f32⟩
  | .hbm, ⟨39, _⟩ => ⟨S1x128, .f32⟩
  | .hbm, ⟨40, _⟩ => ⟨S128, .f32⟩
  | .hbm, ⟨41, _⟩ => ⟨S500000x128, .f32⟩
  | .hbm, ⟨42, _⟩ => ⟨S_, .i32⟩
  | .hbm, ⟨43, _⟩ => ⟨S2000000, .i32⟩
  | .hbm, ⟨44, _⟩ => ⟨S2000000, .i1⟩
  | .hbm, ⟨45, _⟩ => ⟨S_, .i32⟩
  | .hbm, ⟨46, _⟩ => ⟨S2000000, .i32⟩
  | .hbm, ⟨47, _⟩ => ⟨S2000000, .i32⟩
  | .hbm, ⟨48, _⟩ => ⟨S2000000, .i32⟩
  | .hbm, ⟨49, _⟩ => ⟨S2000000x1, .i32⟩
  | .hbm, ⟨50, _⟩ => ⟨S2000000x128, .f32⟩
  | .hbm, ⟨51, _⟩ => ⟨S_, .f32⟩
  | .hbm, ⟨52, _⟩ => ⟨S500000x128, .f32⟩
  | .hbm, ⟨53, _⟩ => ⟨S2000000x1, .i32⟩
  | .hbm, ⟨54, _⟩ => ⟨S500000x128, .f32⟩
  | .hbm, ⟨55, _⟩ => ⟨S1x128x128, .f32⟩
  | .hbm, ⟨56, _⟩ => ⟨S128x128, .f32⟩
  | .hbm, ⟨57, _⟩ => ⟨S1x128x128, .f32⟩
  | .hbm, ⟨58, _⟩ => ⟨S128x128, .f32⟩
  | .hbm, ⟨59, _⟩ => ⟨S1x128, .f32⟩
  | .hbm, ⟨60, _⟩ => ⟨S128, .f32⟩
  | .hbm, ⟨61, _⟩ => ⟨S500000x128, .f32⟩
  | .hbm, ⟨62, _⟩ => ⟨S_, .i32⟩
  | .hbm, ⟨63, _⟩ => ⟨S2000000, .i32⟩
  | .hbm, ⟨64, _⟩ => ⟨S2000000, .i1⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S2000000, .i32⟩
  | .hbm, ⟨69, _⟩ => ⟨S2000000x1, .i32⟩
  | .hbm, ⟨70, _⟩ => ⟨S2000000x128, .f32⟩
  | .hbm, ⟨71, _⟩ => ⟨S_, .f32⟩
  | .hbm, ⟨72, _⟩ => ⟨S500000x128, .f32⟩
  | .hbm, ⟨73, _⟩ => ⟨S2000000x1, .i32⟩
  | .hbm, ⟨74, _⟩ => ⟨S500000x128, .f32⟩
  | .hbm, ⟨75, _⟩ => ⟨S1x128x128, .f32⟩
  | .hbm, ⟨76, _⟩ => ⟨S128x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S500000x128, .f32⟩
  | .local _ .vmem, ⟨0, _⟩ => ⟨S5000x117, .f32⟩
  | .local _ .vmem, ⟨1, _⟩ => ⟨S5000x117, .f32⟩
  | .local _ .vmem, ⟨2, _⟩ => ⟨S117x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S128x128, .f32⟩
  | .local _ .vmem, ⟨13, _⟩ => ⟨S128x128, .f32⟩
  | .local _ .vmem, ⟨14, _⟩ => ⟨S128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128x128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x1, .f32⟩
  | .local _ .vmem, ⟨33, _⟩ => ⟨S5000x1, .f32⟩
  | .local _ .vmem, ⟨34, _⟩ => ⟨S128x128, .f32⟩
  | .local _ .vmem, ⟨35, _⟩ => ⟨S128x128, .f32⟩
  | .local _ .vmem, ⟨36, _⟩ => ⟨S128, .f32⟩
  | .local _ .vmem, ⟨37, _⟩ => ⟨S5000x128, .f32⟩
  | .local _ .vmem, ⟨38, _⟩ => ⟨S5000x128, .f32⟩
  | _, _ => ⟨S500000x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg6_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem6_1 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S117x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  inb_S5000x117_S5000x117_0_0 : ∀ a, (![0, 0] : Fin 2 → Nat) a + S5000x117.size a ≤ S5000x117.size a
  h_S5000x117 : 0 < S5000x117.numel
  bitsLt_bf16_f32 : FTy.bits .bf16 < FTy.bits .f32
  inb_S117x128_S117x128_0_0 : ∀ a, (![0, 0] : Fin 2 → Nat) a + S117x128.size a ≤ S117x128.size a
  h_S117x128 : 0 < S117x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  shapeCasts_S500000_S500000x1 : S500000.ShapeCasts S500000x1
  bcast_S_S500000x128 : S_.BroadcastsInDim S500000x128 (![] : Fin 0 → Fin S500000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S5000x117_S117x128_S5000x128_1_0_0_1_n_n_wf : DotDims.WF S5000x117 S117x128 S5000x128 [1] [0] [0] [1] [] []
  scatter_S500000_S2000000x1_S2000000_n_0_0_1_wf : ScatterDims.WF S500000 S2000000x1 S2000000 [] [0] [0] 1
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x117.size a ≤ S500000x117.size a
  hwx0_0 : ∀ i : grid0.Coords, EltTy.bits .f32 = 32 ∨ (Rect.block (s := S500000x117) S5000x117.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S117x128.size a ≤ S117x128.size a
  hwx0_1 : ∀ i : grid0.Coords, EltTy.bits .f32 = 32 ∨ (Rect.block (s := S117x128) S117x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S500000x1.size a
  hwx1_2 : ∀ i : grid1.Coords, EltTy.bits .f32 = 32 ∨ (Rect.block (s := S500000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S500000x128.size a
  hwx1_6 : ∀ i : grid1.Coords, EltTy.bits .f32 = 32 ∨ (Rect.block (s := S500000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S500000x128.size a
  hwx2_6 : ∀ i : grid2.Coords, EltTy.bits .f32 = 32 ∨ (Rect.block (s := S500000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .f32 = 32 ∨ (Rect.block (s := S500000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S500000x128.size a
  hwx3_1 : ∀ i : grid3.Coords, EltTy.bits .f32 = 32 ∨ (Rect.block (s := S500000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S500000x1.size a
  hwx3_2 : ∀ i : grid3.Coords, EltTy.bits .f32 = 32 ∨ (Rect.block (s := S500000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S500000x128.size a
  hwx3_6 : ∀ i : grid3.Coords, EltTy.bits .f32 = 32 ∨ (Rect.block (s := S500000x128) S5000x128.size (cc3_transform_6 i) (hinb3_6 i)).WholeWords (EltTy.packing .f32)

variable [Facts₀]

def dot_S5000x117_S117x128_S5000x128_1_0_0_1_n_n : DotDims S5000x117 S117x128 S5000x128 where
  lhsContracting := [1]
  rhsContracting := [0]
  lhsNonContracting := [0]
  rhsNonContracting := [1]
  lhsBatch := []
  rhsBatch := []
  wf := dot_S5000x117_S117x128_S5000x128_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x117.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S117x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v38) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v55) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S500000x117 : Shape := ⟨2, ![500000, 117]⟩
abbrev S2000000 : Shape := ⟨1, ![2000000]⟩
abbrev S117x128 : Shape := ⟨2, ![117, 128]⟩
abbrev S128 : Shape := ⟨1, ![128]⟩
abbrev S3x128x128 : Shape := ⟨3, ![3, 128, 128]⟩
abbrev S3x128 : Shape := ⟨2, ![3, 128]⟩
abbrev S500000x128 : Shape := ⟨2, ![500000, 128]⟩
abbrev S1x128 : Shape := ⟨2, ![1, 128]⟩
abbrev S_ : Shape := ⟨0, ![]⟩
abbrev S500000 : Shape := ⟨1, ![500000]⟩
abbrev S2000000x1 : Shape := ⟨2, ![2000000, 1]⟩
abbrev S500000x1 : Shape := ⟨2, ![500000, 1]⟩
abbrev S2000000x128 : Shape := ⟨2, ![2000000, 128]⟩
abbrev S1x128x128 : Shape := ⟨3, ![1, 128, 128]⟩
abbrev S128x128 : Shape := ⟨2, ![128, 128]⟩

abbrev nBuf : Space → Nat
  | .hbm => 116
  | .vmem => 0
  | .smem => 0
  | _ => 0

abbrev bufTy : (tb : Table) → Fin (tcTables nBuf tb) → BufTy
  | .hbm, ⟨0, _⟩ => ⟨S500000x117, .f32⟩
  | .hbm, ⟨1, _⟩ => ⟨S2000000, .i32⟩
  | .hbm, ⟨2, _⟩ => ⟨S2000000, .i32⟩
  | .hbm, ⟨3, _⟩ => ⟨S117x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S500000x128, .f32⟩
  | .hbm, ⟨9, _⟩ => ⟨S1x128, .f32⟩
  | .hbm, ⟨10, _⟩ => ⟨S500000x128, .f32⟩
  | .hbm, ⟨11, _⟩ => ⟨S500000x128, .f32⟩
  | .hbm, ⟨12, _⟩ => ⟨S500000x128, .f32⟩
  | .hbm, ⟨13, _⟩ => ⟨S_, .f32⟩
  | .hbm, ⟨14, _⟩ => ⟨S2000000, .f32⟩
  | .hbm, ⟨15, _⟩ => ⟨S_, .f32⟩
  | .hbm, ⟨16, _⟩ => ⟨S500000, .f32⟩
  | .hbm, ⟨17, _⟩ => ⟨S2000000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .f32⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000x1, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000x128, .f32⟩
  | .hbm, ⟨35, _⟩ => ⟨S_, .f32⟩
  | .hbm, ⟨36, _⟩ => ⟨S500000x128, .f32⟩
  | .hbm, ⟨37, _⟩ => ⟨S2000000x1, .i32⟩
  | .hbm, ⟨38, _⟩ => ⟨S500000x128, .f32⟩
  | .hbm, ⟨39, _⟩ => ⟨S500000x128, .f32⟩
  | .hbm, ⟨40, _⟩ => ⟨S500000x128, .f32⟩
  | .hbm, ⟨41, _⟩ => ⟨S1x128x128, .f32⟩
  | .hbm, ⟨42, _⟩ => ⟨S128x128, .f32⟩
  | .hbm, ⟨43, _⟩ => ⟨S500000x128, .f32⟩
  | .hbm, ⟨44, _⟩ => ⟨S1x128x128, .f32⟩
  | .hbm, ⟨45, _⟩ => ⟨S128x128, .f32⟩
  | .hbm, ⟨46, _⟩ => ⟨S500000x128, .f32⟩
  | .hbm, ⟨47, _⟩ => ⟨S500000x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S500000x128, .f32⟩
  | .hbm, ⟨52, _⟩ => ⟨S500000x128, .f32⟩
  | .hbm, ⟨53, _⟩ => ⟨S_, .f32⟩
  | .hbm, ⟨54, _⟩ => ⟨S500000x128, .f32⟩
  | .hbm, ⟨55, _⟩ => ⟨S500000x128, .f32⟩
  | .hbm, ⟨56, _⟩ => ⟨S_, .i32⟩
  | .hbm, ⟨57, _⟩ => ⟨S2000000, .i32⟩
  | .hbm, ⟨58, _⟩ => ⟨S2000000, .i1⟩
  | .hbm, ⟨59, _⟩ => ⟨S_, .i32⟩
  | .hbm, ⟨60, _⟩ => ⟨S2000000, .i32⟩
  | .hbm, ⟨61, _⟩ => ⟨S2000000, .i32⟩
  | .hbm, ⟨62, _⟩ => ⟨S2000000, .i32⟩
  | .hbm, ⟨63, _⟩ => ⟨S2000000x1, .i32⟩
  | .hbm, ⟨64, _⟩ => ⟨S2000000x128, .f32⟩
  | .hbm, ⟨65, _⟩ => ⟨S_, .f32⟩
  | .hbm, ⟨66, _⟩ => ⟨S500000x128, .f32⟩
  | .hbm, ⟨67, _⟩ => ⟨S2000000x1, .i32⟩
  | .hbm, ⟨68, _⟩ => ⟨S500000x128, .f32⟩
  | .hbm, ⟨69, _⟩ => ⟨S500000x128, .f32⟩
  | .hbm, ⟨70, _⟩ => ⟨S500000x128, .f32⟩
  | .hbm, ⟨71, _⟩ => ⟨S1x128x128, .f32⟩
  | .hbm, ⟨72, _⟩ => ⟨S128x128, .f32⟩
  | .hbm, ⟨73, _⟩ => ⟨S500000x128, .f32⟩
  | .hbm, ⟨74, _⟩ => ⟨S1x128x128, .f32⟩
  | .hbm, ⟨75, _⟩ => ⟨S128x128, .f32⟩
  | .hbm, ⟨76, _⟩ => ⟨S500000x128, .f32⟩
  | .hbm, ⟨77, _⟩ => ⟨S500000x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S500000x128, .f32⟩
  | .hbm, ⟨82, _⟩ => ⟨S500000x128, .f32⟩
  | .hbm, ⟨83, _⟩ => ⟨S_, .f32⟩
  | .hbm, ⟨84, _⟩ => ⟨S500000x128, .f32⟩
  | .hbm, ⟨85, _⟩ => ⟨S500000x128, .f32⟩
  | .hbm, ⟨86, _⟩ => ⟨S_, .i32⟩
  | .hbm, ⟨87, _⟩ => ⟨S2000000, .i32⟩
  | .hbm, ⟨88, _⟩ => ⟨S2000000, .i1⟩
  | .hbm, ⟨89, _⟩ => ⟨S_, .i32⟩
  | .hbm, ⟨90, _⟩ => ⟨S2000000, .i32⟩
  | .hbm, ⟨91, _⟩ => ⟨S2000000, .i32⟩
  | .hbm, ⟨92, _⟩ => ⟨S2000000, .i32⟩
  | .hbm, ⟨93, _⟩ => ⟨S2000000x1, .i32⟩
  | .hbm, ⟨94, _⟩ => ⟨S2000000x128, .f32⟩
  | .hbm, ⟨95, _⟩ => ⟨S_, .f32⟩
  | .hbm, ⟨96, _⟩ => ⟨S500000x128, .f32⟩
  | .hbm, ⟨97, _⟩ => ⟨S2000000x1, .i32⟩
  | .hbm, ⟨98, _⟩ => ⟨S500000x128, .f32⟩
  | .hbm, ⟨99, _⟩ => ⟨S500000x128, .f32⟩
  | .hbm, ⟨100, _⟩ => ⟨S500000x128, .f32⟩
  | .hbm, ⟨101, _⟩ => ⟨S1x128x128, .f32⟩
  | .hbm, ⟨102, _⟩ => ⟨S128x128, .f32⟩
  | .hbm, ⟨103, _⟩ => ⟨S500000x128, .f32⟩
  | .hbm, ⟨104, _⟩ => ⟨S1x128x128, .f32⟩
  | .hbm, ⟨105, _⟩ => ⟨S128x128, .f32⟩
  | .hbm, ⟨106, _⟩ => ⟨S500000x128, .f32⟩
  | .hbm, ⟨107, _⟩ => ⟨S500000x128, .f32⟩
  | .hbm, ⟨108, _⟩ => ⟨S1x128, .f32⟩
  | .hbm, ⟨109, _⟩ => ⟨S128, .f32⟩
  | .hbm, ⟨110, _⟩ => ⟨S1x128, .f32⟩
  | .hbm, ⟨111, _⟩ => ⟨S500000x128, .f32⟩
  | .hbm, ⟨112, _⟩ => ⟨S500000x128, .f32⟩
  | .hbm, ⟨113, _⟩ => ⟨S_, .f32⟩
  | .hbm, ⟨114, _⟩ => ⟨S500000x128, .f32⟩
  | .hbm, ⟨115, _⟩ => ⟨S500000x128, .f32⟩
  | _, _ => ⟨S500000x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_call1_cst : Ref sig .tc := ⟨.hbm, 83, rfl⟩
abbrev main_call1_v0 : Ref sig .tc := ⟨.hbm, 84, rfl⟩
abbrev main_v63 : Ref sig .tc := ⟨.hbm, 85, rfl⟩
abbrev main_c_8 : Ref sig .tc := ⟨.hbm, 86, rfl⟩
abbrev main_v64 : Ref sig .tc := ⟨.hbm, 87, rfl⟩
abbrev main_v65 : Ref sig .tc := ⟨.hbm, 88, rfl⟩
abbrev main_c_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_10 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_call2_cst : Ref sig .tc := ⟨.hbm, 113, rfl⟩
abbrev main_call2_v0 : Ref sig .tc := ⟨.hbm, 114, rfl⟩
abbrev main_v88 : Ref sig .tc := ⟨.hbm, 115, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  bcast_S500000_S500000x1_0 : S500000.BroadcastsInDim S500000x1 (![0] : Fin 1 → Fin S500000x1.rank)
  bcast_S_S500000x128 : S_.BroadcastsInDim S500000x128 (![] : Fin 0 → Fin S500000x128.rank)
  bcast_S500000x1_S500000x128_0_1 : S500000x1.BroadcastsInDim S500000x128 (![0, 1] : Fin 2 → Fin S500000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S500000x117_S117x128_S500000x128_1_0_0_1_n_n_wf : DotDims.WF S500000x117 S117x128 S500000x128 [1] [0] [0] [1] [] []
  scatter_S500000_S2000000x1_S2000000_n_0_0_1_wf : ScatterDims.WF S500000 S2000000x1 S2000000 [] [0] [0] 1
  gather_S500000x128_S2000000x1_S2000000x128_1_0_n_n_0_1_1128_wf : GatherDims.WF S500000x128 S2000000x1 S2000000x128 [1] [0] [] [0] [] 1 ![1, 128]
  scatter_S500000x128_S2000000x1_S2000000x128_1_0_0_1_wf : ScatterDims.WF S500000x128 S2000000x1 S2000000x128 [1] [0] [0] 1
  dot_S500000x128_S128x128_S500000x128_1_0_0_1_n_n_wf : DotDims.WF S500000x128 S128x128 S500000x128 [1] [0] [0] [1] [] []

variable [Facts₀]

def dot_S500000x117_S117x128_S500000x128_1_0_0_1_n_n : DotDims S500000x117 S117x128 S500000x128 where
  lhsContracting := [1]
  rhsContracting := [0]
  lhsNonContracting := [0]
  rhsNonContracting := [1]
  lhsBatch := []
  rhsBatch := []
  wf := dot_S500000x117_S117x128_S500000x128_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000x128_S2000000x1_S2000000x128_1_0_n_n_0_1_1128 : GatherDims S500000x128 S2000000x1 S2000000x128 where
  offsetDims := [1]
  collapsedSliceDims := [0]
  operandBatchingDims := []
  startIndicesBatchingDims := []
  startIndexMap := [0]
  indexVectorDim := 1
  sliceSizes := ![1, 128]
  wf := gather_S500000x128_S2000000x1_S2000000x128_1_0_n_n_0_1_1128_wf
def scatter_S500000x128_S2000000x1_S2000000x128_1_0_0_1 : ScatterDims S500000x128 S2000000x1 S2000000x128 where
  updateWindowDims := [1]
  insertedWindowDims := [0]
  scatterDimsToOperandDims := [0]
  indexVectorDim := 1
  wf := scatter_S500000x128_S2000000x1_S2000000x128_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf

class Facts : Prop extends Facts₀ where

variable [Facts]
-- ==== Proof.Spec.lean ====
/-
  A three-layer mean-aggregating graph network, stage by stage, as functions of whole arrays over the extended reals.

  There are 500000 nodes with 117 input features and 128 hidden features. Two kinds of stage are dense and are what the
  kernel and the reference arrange differently (the kernel works on blocks of 5000 rows, the reference on whole arrays):

  * the input projection: row `n` of `x` times `W_in`, plus the bias, through `tanh`;
  * a layer: row `n` of `h` times `W_self`, plus row `n` of the neighbour sum scaled by the node's inverse degree times
    `W_neigh`, plus the bias, clipped below at zero.

  Each is written here index by index, with plain finite sums over the contracted axis. The sparse stages between them
  (the degree count, the gather of source rows and their sum by destination) are the same operations on both sides and
  are never opened.
-/
import Idealize.ShloMosaic.Lib.ValueIdx
import Idealize.ShloMosaic.PureOps.Ideal.Laws

noncomputable section

namespace Cert.Sage

open Idealize.ShloMosaic Idealize.ShloMosaic.ValueIdx

/-- The input projection at node `i 0`, hidden feature `i 1`: `tanh (∑ k, x[n, k] · W[k, j] + b[j])`. -/
def proj (x : FVec Ideal ⟨2, ![500000, 117]⟩ .f32) (w : FVec Ideal ⟨2, ![117, 128]⟩ .f32) (b : FVec Ideal ⟨1, ![128]⟩ .f32) :
    FVec Ideal ⟨2, ![500000, 128]⟩ .f32 :=
  fun i => Ideal.tanh ((∑ k : Fin 117, x (ix2 (i 0) k) * w (ix2 k (i 1))) + b (ix1 (i 1)))

/-- One layer at node `i 0`, feature `i 1`:
    `max ((∑ k, h[n, k] · Ws[k, j]) + (∑ k, (ns[n, k] · idg[n, 0]) · Wn[k, j]) + b[j]) 0`, the two sums added first and the
    bias after, as both programs do. -/
def layer (h ns : FVec Ideal ⟨2, ![500000, 128]⟩ .f32) (idg : FVec Ideal ⟨2, ![500000, 1]⟩ .f32)
    (ws wn : FVec Ideal ⟨2, ![128, 128]⟩ .f32) (b : FVec Ideal ⟨1, ![128]⟩ .f32) : FVec Ideal ⟨2, ![500000, 128]⟩ .f32 :=
  fun i => max (((∑ k : Fin 128, h (ix2 (i 0) k) * ws (ix2 k (i 1)))
      + (∑ k : Fin 128, (ns (ix2 (i 0) k) * idg (ix2 (i 0) (0 : Fin 1))) * wn (ix2 k (i 1)))) + b (ix1 (i 1))) 0

end Cert.Sage

end
-- ==== Proof.HostFns.lean ====
/-
  The sparse and layout stages of the network, as the kernel's program writes them on the host, named once.

  * `invDeg dst`: count, for every node, the edges that land on it (a scatter-add of ones at the destinations), take
    the larger of the count and one, and invert: the factor that turns a neighbour sum into a neighbour mean, as a
    [500000, 1] column.
  * `agg h src dst`: read row `src e` of `h` for every edge `e` (a negative index first shifted up by the number of
    nodes) and add the rows up by destination: the neighbour sum.
  * `wsl l W`, `bsl l b`: slice number `l` of the stacked weights and biases, with the unit axis dropped.

  They are never opened: the reference applies the same operations, so only their arguments are compared.
-/
import proofs.«180075_j24988119728557_1_alg».proof.KernelIdeal
import proofs.«180075_j24988119728557_1_alg».proof.Proof.Gen.KernelIdeal
import Idealize.ShloMosaic.PureOps.Ideal

noncomputable section

namespace Cert.Sage.HostK

open Cert.KernelIdeal Cert.KernelIdeal.Facts₀ Idealize.ShloMosaic

/-- The inverse in-degree column: `1 / max (number of edges landing on n) 1`. -/
def invDeg (dst : (⟨S2000000, .i32⟩ : BufTy).Contents (Elt Ideal)) : (⟨S500000x1, .f32⟩ : BufTy).Contents (Elt Ideal) :=
  shapeCast S500000x1
    (Host.divf (broadcastInDim S500000 ![] bcast_S_S500000 (constant (F := Ideal) S_ .f32 0x3F800000#32))
      (maximumf
        (Host.scatterAdd scatter_S500000_S2000000x1_S2000000_n_0_0_1
          (broadcastInDim S500000 ![] bcast_S_S500000 (constant (F := Ideal) S_ .f32 0x00000000#32))
          (broadcastInDim S2000000x1 ![0] bcast_S2000000_S2000000x1_0 dst)
          (broadcastInDim S2000000 ![] bcast_S_S2000000 (constant (F := Ideal) S_ .f32 0x3F800000#32)))
        (broadcastInDim S500000 ![] bcast_S_S500000 (constant (F := Ideal) S_ .f32 0x3F800000#32))))
    shapeCasts_S500000_S500000x1

/-- The neighbour sum: rows of `h` gathered at the edges' sources, added up at the edges' destinations. -/
def agg (h : (⟨S500000x128, .f32⟩ : BufTy).Contents (Elt Ideal)) (src dst : (⟨S2000000, .i32⟩ : BufTy).Contents (Elt Ideal)) :
    (⟨S500000x128, .f32⟩ : BufTy).Contents (Elt Ideal) :=
  Host.scatterAdd scatter_S500000x128_S2000000x1_S2000000x128_1_0_0_1
    (broadcastInDim S500000x128 ![] bcast_S_S500000x128 (constant (F := Ideal) S_ .f32 0x00000000#32))
    (broadcastInDim S2000000x1 ![0] bcast_S2000000_S2000000x1_0 dst)
    (Host.gather gather_S500000x128_S2000000x1_S2000000x128_1_0_n_n_0_1_1128 h
      (broadcastInDim S2000000x1 ![0] bcast_S2000000_S2000000x1_0
        (select (cmpi .slt src (broadcastInDim S2000000 ![] bcast_S_S2000000 (constantI S_ 32 0#32)))
          (addi src (broadcastInDim S2000000 ![] bcast_S_S2000000 (constantI S_ 32 500000#32)))
          src)))

/-- Slice 0, 1, 2 of a stack of three [128, 128] matrices. -/
def wsl0 (W : (⟨S3x128x128, .f32⟩ : BufTy).Contents (Elt Ideal)) : (⟨S128x128, .f32⟩ : BufTy).Contents (Elt Ideal) :=
  shapeCast S128x128 (extractStridedSlice S1x128x128 ![0, 0, 0] W slices_S3x128x128_S1x128x128_0_0_0) shapeCasts_S1x128x128_S128x128
def wsl1 (W : (⟨S3x128x128, .f32⟩ : BufTy).Contents (Elt Ideal)) : (⟨S128x128, .f32⟩ : BufTy).Contents (Elt Ideal) :=
  shapeCast S128x128 (extractStridedSlice S1x128x128 ![1, 0, 0] W slices_S3x128x128_S1x128x128_1_0_0) shapeCasts_S1x128x128_S128x128
def wsl2 (W : (⟨S3x128x128, .f32⟩ : BufTy).Contents (Elt Ideal)) : (⟨S128x128, .f32⟩ : BufTy).Contents (Elt Ideal) :=
  shapeCast S128x128 (extractStridedSlice S1x128x128 ![2, 0, 0] W slices_S3x128x128_S1x128x128_2_0_0) shapeCasts_S1x128x128_S128x128

/-- Row 0, 1, 2 of a stack of three bias vectors. -/
def bsl0 (b : (⟨S3x128, .f32⟩ : BufTy).Contents (Elt Ideal)) : (⟨S128, .f32⟩ : BufTy).Contents (Elt Ideal) :=
  shapeCast S128 (extractStridedSlice S1x128 ![0, 0] b slices_S3x128_S1x128_0_0) shapeCasts_S1x128_S128
def bsl1 (b : (⟨S3x128, .f32⟩ : BufTy).Contents (Elt Ideal)) : (⟨S128, .f32⟩ : BufTy).Contents (Elt Ideal) :=
  shapeCast S128 (extractStridedSlice S1x128 ![1, 0] b slices_S3x128_S1x128_1_0) shapeCasts_S1x128_S128
def bsl2 (b : (⟨S3x128, .f32⟩ : BufTy).Contents (Elt Ideal)) : (⟨S128, .f32⟩ : BufTy).Contents (Elt Ideal) :=
  shapeCast S128 (extractStridedSlice S1x128 ![2, 0] b slices_S3x128_S1x128_2_0) shapeCasts_S1x128_S128

end Cert.Sage.HostK

end
-- ==== Proof.NetTerm.lean ====
/-
  The whole network as one term of the eight argument arrays: the projection, then three layers, each layer fed the
  previous features, their neighbour sum, the inverse in-degree column and its own slices of the weights and biases.
  Both programs are shown to end with their result array at this term.
-/
import proofs.«180075_j24988119728557_1_alg».proof.Proof.Spec
import proofs.«180075_j24988119728557_1_alg».proof.Proof.HostFns

noncomputable section

namespace Cert.Sage

open Cert.KernelIdeal Idealize.ShloMosaic Cert.Sage.HostK

section
variable (x0 : (⟨S500000x117, .f32⟩ : BufTy).Contents (Elt Ideal)) (x1 x2 : (⟨S2000000, .i32⟩ : BufTy).Contents (Elt Ideal))
  (x3 : (⟨S117x128, .f32⟩ : BufTy).Contents (Elt Ideal)) (x4 : (⟨S128, .f32⟩ : BufTy).Contents (Elt Ideal))
  (x5 x6 : (⟨S3x128x128, .f32⟩ : BufTy).Contents (Elt Ideal)) (x7 : (⟨S3x128, .f32⟩ : BufTy).Contents (Elt Ideal))

/-- The features after the input projection. -/
def feat0 : (⟨S500000x128, .f32⟩ : BufTy).Contents (Elt Ideal) := proj x0 x3 x4

/-- The features after the first layer. -/
def feat1 : (⟨S500000x128, .f32⟩ : BufTy).Contents (Elt Ideal) :=
  layer (feat0 x0 x3 x4) (agg (feat0 x0 x3 x4) x1 x2) (invDeg x2) (wsl0 x5) (wsl0 x6) (bsl0 x7)

/-- The features after the second layer. -/
def feat2 : (⟨S500000x128, .f32⟩ : BufTy).Contents (Elt Ideal) :=
  layer (feat1 x0 x1 x2 x3 x4 x5 x6 x7) (agg (feat1 x0 x1 x2 x3 x4 x5 x6 x7) x1 x2) (invDeg x2) (wsl1 x5) (wsl1 x6) (bsl1 x7)

/-- The network's result: the features after the third layer. -/
def feat3 : (⟨S500000x128, .f32⟩ : BufTy).Contents (Elt Ideal) :=
  layer (feat2 x0 x1 x2 x3 x4 x5 x6 x7) (agg (feat2 x0 x1 x2 x3 x4 x5 x6 x7) x1 x2) (invDeg x2) (wsl2 x5) (wsl2 x6) (bsl2 x7)

end

end Cert.Sage

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.KernelProj.lean ====
/-
  The input projection's region, from blocks to the whole array, over the extended reals.

  The region runs over 100 grid points. At point t the node-feature window holds rows 5000 t … 5000 t + 4999 of the
  [500000, 117] array, the weight window the whole [117, 128] array, the bias window the whole [128] array, and the body
  leaves in the output window's block, at (p, q), tanh of (row p of the feature block times column q of the weight, plus
  the bias at q): the two operands' narrowing to the short format is the identity here, the product into the zero
  accumulator is the plain sum over the 117 contracted coordinates, and the bias is one row repeated over the 5000 rows.
  Point t writes its block back at rows 5000 t … 5000 t + 4999 of the [500000, 128] output array, so what it writes is
  block t of the projection of the whole arrays; the 100 blocks cover every row (row r lies in block r / 5000), hence the
  output array after the region is the projection of the arrays the region finds.
-/
import proofs.«180075_j24988119728557_1_alg».proof.Proof.Gen.KernelIdeal.Frame
import proofs.«180075_j24988119728557_1_alg».proof.Proof.Spec
import proofs.«180075_j24988119728557_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

set_option maxRecDepth 16384

noncomputable section

namespace Cert.Sage.K0

open Cert.KernelIdeal Cert.KernelIdeal.Gen
open Idealize.ShloMosaic Idealize.ShloMosaic.TcCoe Idealize.SL.Sem Idealize.ShloMosaic.ValueIdx
open Idealize.ShloMosaic.Pipeline (Dat)

/-- The printed contraction record is the plain one: contract the left operand's axis 1 with the right operand's axis 0. -/
theorem dot_plain : dot_S5000x117_S117x128_S5000x128_1_0_0_1_n_n = DotDims.plain 5000 117 128 := rfl

/-- The payload at row p, column q: tanh of (row p of x times column q of w, plus b at q). -/
theorem pay_apply (x : Vec Ideal S5000x117 .f32) (w : Vec Ideal S117x128 .f32) (b : Vec Ideal S128 .f32) (p : Fin 5000) (q : Fin 128) :
    k0_pay1 (F := Ideal) x w b (ix2 p q) = Ideal.tanh ((∑ k : Fin 117, x (ix2 p k) * w (ix2 k q)) + b (ix1 q)) := by
  unfold k0_pay1
  show Ideal.tanh (_ + _) = _
  rw [dot_plain]
  refine congrArg Ideal.tanh (congrArg₂ (· + ·) ?_ ?_)
  · exact Cert.PlainMatmul.apply none (truncf FTy.bf16 x bitsLt_bf16_f32) (truncf FTy.bf16 w bitsLt_bf16_f32) p q
  · exact (broadcastTo_1b_ab_apply _ _ p q).trans (shapeCast_a_1a_apply b _ 0 q)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the grid: the two 5000-row windows sit at block (t, 0), the weight and the bias at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of block t is row 5000 t + p of the array. -/
def row (t : Fin cfg0.N) (p : Fin 5000) : Fin 500000 :=
  ⟨t.val * 5000 + p.val, by have h : t.val < 100 := lt_of_lt_of_eq t.isLt N_0; have := p.isLt; omega⟩

/-- The output window's block t holds rows 5000 t … 5000 t + 4999, all 128 columns. -/
theorem out_emb (t : Fin cfg0.N) (p : Fin 5000) (q : Fin 128) :
    ((cfg0.win 3).blk t).view.emb (ix2 p q) = ix2 (row t p) q := by
  obtain ⟨-, -, -, -, -, e0, e1⟩ := idx_facts t
  funext a; apply Fin.ext
  match a with
  | ⟨0, _⟩ => show win0_3.index t (0 : Fin 2) * 5000 + 1 * p.val = t.val * 5000 + p.val; rw [e0]; omega
  | ⟨1, _⟩ => show win0_3.index t (1 : Fin 2) * 128 + 1 * q.val = q.val; rw [e1]; omega

/-- The node-feature window's block t, at (p, k), is the array at row 5000 t + p, column k. -/
theorem x_blk (c : Dev nD) (t : Fin cfg0.N) (p : Fin 5000) (k : Fin 117) :
    iblk0 V c 0 t (ix2 p k) = V c main_arg0 (ix2 (row t p) k) := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 5000 + 1 * p.val = t.val * 5000 + p.val; rw [e0]; omega
  | ⟨1, _⟩ => show win0_0.index t (1 : Fin 2) * 117 + 1 * k.val = k.val; rw [e1]; omega

/-- The weight window's one block is the whole array. -/
theorem w_blk (c : Dev nD) (t : Fin cfg0.N) (k : Fin 117) (q : Fin 128) :
    iblk0 V c 1 t (ix2 k q) = V c main_arg3 (ix2 k q) := by
  obtain ⟨-, -, e0, e1, -⟩ := idx_facts t
  unfold iblk0
  rw [View.read_apply]
  show V c main_arg3 _ = V c main_arg3 _
  congr 1
  funext a; apply Fin.ext
  match a with
  | ⟨0, _⟩ => show win0_1.index t (0 : Fin 2) * 117 + 1 * k.val = k.val; rw [e0]; omega
  | ⟨1, _⟩ => show win0_1.index t (1 : Fin 2) * 128 + 1 * q.val = q.val; rw [e1]; omega

/-- The bias window's one block is the whole array. -/
theorem b_blk (c : Dev nD) (t : Fin cfg0.N) (q : Fin 128) :
    iblk0 V c 2 t (ix1 q) = V c main_arg4 (ix1 q) := by
  obtain ⟨-, -, -, -, e0, -⟩ := idx_facts t
  unfold iblk0
  rw [View.read_apply]
  show V c main_arg4 _ = V c main_arg4 _
  congr 1
  funext a; apply Fin.ext
  match a with
  | ⟨0, _⟩ => show win0_2.index t (0 : Fin 1) * 128 + 1 * q.val = q.val; rw [e0]; omega

/-- What point t writes back is block t of the projection of the whole arrays. -/
theorem flushed_eq (c : Dev nD) (t : Fin cfg0.N) :
    (dat0 V c).flushed 3 t = ((cfg0.win 3).blk t).view.read (Elt Ideal)
      (Cert.Sage.proj (V c main_arg0) (V c main_arg3) (V c main_arg4)) := by
  show (cfg0.win 3).cut (grid0.coords t) ((dat0 V c).after 3 t) = _
  rw [after0_3]
  unfold out0_3
  rw [View.canon_unit_zero zero2]
  simp only [View.ld_unit_zero (S := S5000x117) zero2, View.ld_unit_zero (S := S117x128) zero2, View.ld_unit_zero (S := S128) zero1]
  refine funext fun (j : S5000x128.Idx) => ?_
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.Sage.proj (V c main_arg0) (V c main_arg3) (V c main_arg4) (((cfg0.win 3).blk t).view.emb (ix2 p q))
  rw [out_emb, pay_apply]
  unfold Cert.Sage.proj
  show Ideal.tanh _ = Ideal.tanh _
  refine congrArg Ideal.tanh (congrArg₂ (· + ·) (Finset.sum_congr rfl fun k _ => ?_) ?_)
  · exact congrArg₂ (· * ·) (x_blk V c t p k) (w_blk V c t k q)
  · exact b_blk V c t q

/-- An index of the array is in point t's block iff each coordinate is in the block's range on its axis. -/
theorem mem_blk (t : Fin cfg0.N) (i : S500000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- The blocks cover the array: row r is in the block of point r / 5000. -/
theorem cover (i : S500000x128.Idx) :
    ∃ t : Fin cfg0.N, (cfg0.win 3).flush t = true ∧ i ∈ ((cfg0.win 3).blk t).view.set := by
  have hi0 : (i 0).val < 500000 := (i 0).isLt
  have hi1 : (i 1).val < 128 := (i 1).isLt
  obtain ⟨t, ht⟩ : ∃ t : Fin cfg0.N, t.val = (i 0).val / 5000 :=
    ⟨⟨(i 0).val / 5000, by rw [show cfg0.N = 100 from N_0]; omega⟩, rfl⟩
  obtain ⟨-, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The output array after the region is the input projection of the arrays the region finds. -/
theorem final0 (c : Dev nD) :
    (dat0 (F := Ideal) V c).arrAt 3 cfg0.N = Cert.Sage.proj (V c main_arg0) (V c main_arg3) (V c main_arg4) :=
  (dat0 V c).arrAt_eq_of_cover 3 (Cert.Sage.proj (V c main_arg0) (V c main_arg3) (V c main_arg4))
    (fun t _ => flushed_eq V c t) cover

end Cert.Sage.K0

end
-- ==== Proof.KernelLayer1.lean ====
/-
  The first layer's launch, read as a function of whole arrays.

  The launch walks 100 grid points. At point t it holds rows 5000 t … 5000 t + 4999 of the node features h, of the
  neighbour sum ns and of the inverse degree idg, and the whole of the two weight matrices and of the bias; it writes
  rows 5000 t … 5000 t + 4999 of the output. Entry (p, q) of what it writes depends on row p of the h block, row p of
  the ns block, entry (p, 0) of the idg block, column q of each weight matrix and entry q of the bias:

      max ((∑ k, h[p, k] · Ws[k, q]) + (∑ k, (ns[p, k] · idg[p, 0]) · Wn[k, q]) + b[q]) 0.

  Over the extended reals the narrowing of the products' operands is the identity, a product into the zero accumulator
  is the plain finite sum, and the scalar zero broadcast is 0. The 100 blocks of 5000 rows tile the 500000 rows, so the
  output array ends as `Cert.Sage.layer` of the six arrays the launch finds.
-/
import proofs.«180075_j24988119728557_1_alg».proof.Proof.Gen.KernelIdeal.Frame
import proofs.«180075_j24988119728557_1_alg».proof.Proof.Spec
import proofs.«180075_j24988119728557_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.Sage.K1

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an entry -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's contraction record is the plain one: left axis 1 against right axis 0, no batch axes. -/
theorem dot_eq_plain : dot_S5000x128_S128x128_S5000x128_1_0_0_1_n_n = DotDims.plain 5000 128 128 := rfl

/-- Entry `(p, q)` of the body's result from the six blocks it loads: row `p` of `h` against column `q` of `ws`, plus row
    `p` of `ns` scaled by `idg (p, 0)` against column `q` of `wn`, plus `b q`, clipped below at zero. -/
theorem pay_apply (h ns : Vec Ideal S5000x128 .f32) (idg : Vec Ideal S5000x1 .f32) (ws wn : Vec Ideal S128x128 .f32)
    (b : Vec Ideal S128 .f32) (p : Fin 5000) (q : Fin 128) :
    k1_pay1 (F := Ideal) h ns idg ws wn b (ix2 p q)
      = max (((∑ k : Fin 128, h (ix2 p k) * ws (ix2 k q))
          + (∑ k : Fin 128, (ns (ix2 p k) * idg (ix2 p (0 : Fin 1))) * wn (ix2 k q))) + b (ix1 q)) 0 := by
  unfold k1_pay1
  simp only [shapeCast_self]
  rw [maximumf_apply, addf_apply, addf_apply, broadcast_apply, dot_eq_plain]
  rw [broadcastTo_1b_ab_apply, shapeCast_a_1a_apply]
  refine congrArg₂ max (congrArg₂ (· + ·) (congrArg₂ (· + ·) ?_ ?_) rfl) Ideal.ofBits_zero_f32
  · refine (Cert.PlainMatmul.apply none _ _ p q).trans ?_
    rfl
  · refine (Cert.PlainMatmul.apply none _ _ p q).trans ?_
    refine Finset.sum_congr rfl fun k _ => ?_
    rw [truncf_apply, truncf_apply, mulf_apply, broadcastTo_a1_ab_apply]

/-! ## Each window's block at a grid point, as entries of its array -/

variable (V : (c : Dev nD) → (b : Ref sig .tc) → Buf (Elt Ideal) ((c : Thread nD τ).loc b))

theorem zeros2 : (![0, 0] : Fin 2 → Nat) = fun _ => 0 := funext fun a => by fin_cases a <;> rfl

theorem zeros1 : (![0] : Fin 1 → Nat) = fun _ => 0 := funext fun a => by fin_cases a; rfl

/-- The windows' block indices over the grid: the three node arrays and the output are at block `(t, 0)` at point `t`,
    the two weight matrices at block `(0, 0)` and the bias at block `0` throughout. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

theorem point_lt (t : Fin cfg1.N) : t.val < 100 := by
  have h : cfg1.N = 100 := N_1
  have := t.isLt
  omega

/-- Row `p` of the block at point `t` is row `5000 t + p` of the array. -/
def row (t : Fin cfg1.N) (p : Fin 5000) : Fin 500000 :=
  ⟨5000 * t.val + p.val, by have := point_lt t; have := p.isLt; omega⟩

/-- Entry `(p, k)` of the `h` block at point `t` is entry `(5000 t + p, k)` of the array. -/
theorem blk_h (c : Dev nD) (t : Fin cfg1.N) (p : Fin 5000) (k : Fin 128) :
    (iblk1 V c 0 t : Vec Ideal S5000x128 .f32) (ix2 p k) = (V c main_v0 : S500000x128.Idx → Ideal .f32) (ix2 (row t p) k) := by
  obtain ⟨e0, e1, -⟩ := block_index t
  unfold iblk1
  rw [View.read_apply]
  show V c main_v0 _ = V c main_v0 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Entry `(p, k)` of the `ns` block at point `t` is entry `(5000 t + p, k)` of the array. -/
theorem blk_ns (c : Dev nD) (t : Fin cfg1.N) (p : Fin 5000) (k : Fin 128) :
    (iblk1 V c 1 t : Vec Ideal S5000x128 .f32) (ix2 p k) = (V c main_v19 : S500000x128.Idx → Ideal .f32) (ix2 (row t p) k) := by
  obtain ⟨-, -, e0, e1, -⟩ := block_index t
  unfold iblk1
  rw [View.read_apply]
  show V c main_v19 _ = V c main_v19 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- Entry `(p, 0)` of the `idg` block at point `t` is entry `(5000 t + p, 0)` of the array. -/
theorem blk_idg (c : Dev nD) (t : Fin cfg1.N) (p : Fin 5000) (u : Fin 1) :
    (iblk1 V c 2 t : Vec Ideal S5000x1 .f32) (ix2 p u) = (V c main_v9 : S500000x1.Idx → Ideal .f32) (ix2 (row t p) u) := by
  obtain ⟨-, -, -, -, e0, e1, -⟩ := block_index t
  unfold iblk1
  rw [View.read_apply]
  show V c main_v9 _ = V c main_v9 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * u.val = u.val; rw [e1]; omega

/-- The `ws` block at every point is the whole matrix. -/
theorem blk_ws (c : Dev nD) (t : Fin cfg1.N) (k : Fin 128) (q : Fin 128) :
    (iblk1 V c 3 t : Vec Ideal S128x128 .f32) (ix2 k q) = (V c main_v21 : S128x128.Idx → Ideal .f32) (ix2 k q) := by
  obtain ⟨-, -, -, -, -, -, e0, e1, -⟩ := block_index t
  unfold iblk1
  rw [View.read_apply]
  show V c main_v21 _ = V c main_v21 _
  congr 1
  funext a
  apply Fin.ext
  match a with
  | ⟨0, _⟩ => show win1_3.index t (0 : Fin 2) * 128 + 1 * k.val = k.val; rw [e0]; omega
  | ⟨1, _⟩ => show win1_3.index t (1 : Fin 2) * 128 + 1 * q.val = q.val; rw [e1]; omega

/-- The `wn` block at every point is the whole matrix. -/
theorem blk_wn (c : Dev nD) (t : Fin cfg1.N) (k : Fin 128) (q : Fin 128) :
    (iblk1 V c 4 t : Vec Ideal S128x128 .f32) (ix2 k q) = (V c main_v23 : S128x128.Idx → Ideal .f32) (ix2 k q) := by
  obtain ⟨-, -, -, -, -, -, -, -, e0, e1, -⟩ := block_index t
  unfold iblk1
  rw [View.read_apply]
  show V c main_v23 _ = V c main_v23 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- The bias block at every point is the whole vector. -/
theorem blk_b (c : Dev nD) (t : Fin cfg1.N) (q : Fin 128) :
    (iblk1 V c 5 t : Vec Ideal S128 .f32) (ix1 q) = (V c main_v25 : S128.Idx → Ideal .f32) (ix1 q) := by
  obtain ⟨-, -, -, -, -, -, -, -, -, -, e0, -⟩ := block_index t
  unfold iblk1
  rw [View.read_apply]
  show V c main_v25 _ = V c main_v25 _
  congr 1
  funext a
  apply Fin.ext
  match a with
  | ⟨0, _⟩ => show win1_5.index t (0 : Fin 1) * 128 + 1 * q.val = q.val; rw [e0]; omega

/-- Entry `(p, q)` of the output block at point `t` sits at `(5000 t + p, q)` in the output array. -/
theorem out_emb (t : Fin cfg1.N) (p : Fin 5000) (q : Fin 128) :
    ((cfg1.win 6).blk t).view.emb (ix2 p q) = (ix2 (row t p) q : S500000x128.Idx) := by
  obtain ⟨-, -, -, -, -, -, -, -, -, -, -, e0, e1⟩ := block_index t
  funext a
  apply Fin.ext
  match a with
  | ⟨0, _⟩ => show win1_6.index t (0 : Fin 2) * 5000 + 1 * p.val = 5000 * t.val + p.val; rw [e0]; omega
  | ⟨1, _⟩ => show win1_6.index t (1 : Fin 2) * 128 + 1 * q.val = q.val; rw [e1]; omega

/-! ## What a grid point writes back, and the whole array -/

/-- The layer of the six arrays the launch finds. -/
abbrev result (c : Dev nD) : FVec Ideal ⟨2, ![500000, 128]⟩ .f32 :=
  Cert.Sage.layer (V c main_v0) (V c main_v19) (V c main_v9) (V c main_v21) (V c main_v23) (V c main_v25)

/-- Point `t` writes back rows `5000 t … 5000 t + 4999` of the layer. -/
theorem flushed_eq (c : Dev nD) (t : Fin cfg1.N) :
    (dat1 (F := Ideal) V c).flushed 6 t = ((cfg1.win 6).blk t).view.read (Elt Ideal) (result V c) := by
  show (cfg1.win 6).cut (grid1.coords t) ((dat1 V c).after 6 t) = _
  rw [after1_6]
  unfold out1_6
  rw [View.canon_unit_zero zeros2]
  simp only [View.ld_unit_zero (S := S5000x128) zeros2, View.ld_unit_zero (S := S5000x1) zeros2,
    View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  rw [View.read_apply, out_emb t p q]
  refine (pay_apply _ _ _ _ _ _ p q).trans ?_
  refine Eq.trans ?_ (cast_eq rfl _).symm
  show _ = Cert.Sage.layer _ _ _ _ _ _ (ix2 (row t p) q)
  unfold Cert.Sage.layer
  refine congrArg₂ max (congrArg₂ (· + ·) (congrArg₂ (· + ·) (Finset.sum_congr rfl fun k _ => ?_)
    (Finset.sum_congr rfl fun k _ => ?_)) ?_) rfl
  · exact congrArg₂ (· * ·) (blk_h V c t p k) (blk_ws V c t k q)
  · exact congrArg₂ (· * ·) (congrArg₂ (· * ·) (blk_ns V c t p k) (blk_idg V c t p 0)) (blk_wn V c t k q)
  · exact blk_b V c t q

/-- An index of the output array is in point `t`'s block iff each coordinate is in the block's range on its axis. -/
theorem mem_blk (t : Fin cfg1.N) (i : S500000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v26).slice (win1_6.rect t)).set ↔ _
  rw [View.set_slice_whole, Rect.mem_set_unit]
  exact Iff.rfl

/-- Every entry of the output array is in some point's block: row `r` is in the block of point `r / 5000`. -/
theorem cover (i : S500000x128.Idx) :
    ∃ t : Fin cfg1.N, (cfg1.win 6).flush t = true ∧ i ∈ ((cfg1.win 6).blk t).view.set := by
  have hi0 : (i 0).val < 500000 := (i 0).isLt
  have hi1 : (i 1).val < 128 := (i 1).isLt
  have hN : cfg1.N = 100 := N_1
  let t : Fin cfg1.N := ⟨(i 0).val / 5000, by omega⟩
  have ht : t.val = (i 0).val / 5000 := rfl
  obtain ⟨-, -, -, -, -, -, -, -, -, -, -, e0, e1⟩ := block_index t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0]; omega
  | ⟨1, _⟩ => show win1_6.index t (1 : Fin 2) * 128 ≤ (i 1).val ∧ (i 1).val < win1_6.index t (1 : Fin 2) * 128 + 128; rw [e1]; omega

/-- THE OUTPUT ARRAY after the launch is the layer of the six arrays the launch finds. -/
theorem final1 (c : Dev nD) :
    (dat1 (F := Ideal) V c).arrAt 6 cfg1.N
      = Cert.Sage.layer (V c main_v0) (V c main_v19) (V c main_v9) (V c main_v21) (V c main_v23) (V c main_v25) :=
  (dat1 (F := Ideal) V c).arrAt_eq_of_cover 6 (result V c) (fun t _ => flushed_eq V c t) cover

end Cert.Sage.K1

end
-- ==== Proof.KernelLayer2.lean ====
/-
  The second layer's launch, read as a function of whole arrays.

  The launch walks 100 grid points. At point t it holds rows 5000 t … 5000 t + 4999 of the node features h, of the
  neighbour sum ns and of the inverse degree idg, and the whole of the two weight matrices and of the bias; it writes
  rows 5000 t … 5000 t + 4999 of the output. Entry (p, q) of what it writes depends on row p of the h block, row p of
  the ns block, entry (p, 0) of the idg block, column q of each weight matrix and entry q of the bias:

      max ((∑ k, h[p, k] · Ws[k, q]) + (∑ k, (ns[p, k] · idg[p, 0]) · Wn[k, q]) + b[q]) 0.

  Over the extended reals the narrowing of the products' operands is the identity, a product into the zero accumulator
  is the plain finite sum, and the scalar zero broadcast is 0. The 100 blocks of 5000 rows tile the 500000 rows, so the
  output array ends as `Cert.Sage.layer` of the six arrays the launch finds.
-/
import proofs.«180075_j24988119728557_1_alg».proof.Proof.Gen.KernelIdeal.Frame
import proofs.«180075_j24988119728557_1_alg».proof.Proof.Spec
import proofs.«180075_j24988119728557_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.Sage.K2

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an entry -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's contraction record is the plain one: left axis 1 against right axis 0, no batch axes. -/
theorem dot_eq_plain : dot_S5000x128_S128x128_S5000x128_1_0_0_1_n_n = DotDims.plain 5000 128 128 := rfl

/-- Entry `(p, q)` of the body's result from the six blocks it loads: row `p` of `h` against column `q` of `ws`, plus row
    `p` of `ns` scaled by `idg (p, 0)` against column `q` of `wn`, plus `b q`, clipped below at zero. -/
theorem pay_apply (h ns : Vec Ideal S5000x128 .f32) (idg : Vec Ideal S5000x1 .f32) (ws wn : Vec Ideal S128x128 .f32)
    (b : Vec Ideal S128 .f32) (p : Fin 5000) (q : Fin 128) :
    k2_pay1 (F := Ideal) h ns idg ws wn b (ix2 p q)
      = max (((∑ k : Fin 128, h (ix2 p k) * ws (ix2 k q))
          + (∑ k : Fin 128, (ns (ix2 p k) * idg (ix2 p (0 : Fin 1))) * wn (ix2 k q))) + b (ix1 q)) 0 := by
  unfold k2_pay1
  simp only [shapeCast_self]
  rw [maximumf_apply, addf_apply, addf_apply, broadcast_apply, dot_eq_plain]
  rw [broadcastTo_1b_ab_apply, shapeCast_a_1a_apply]
  refine congrArg₂ max (congrArg₂ (· + ·) (congrArg₂ (· + ·) ?_ ?_) rfl) Ideal.ofBits_zero_f32
  · refine (Cert.PlainMatmul.apply none _ _ p q).trans ?_
    rfl
  · refine (Cert.PlainMatmul.apply none _ _ p q).trans ?_
    refine Finset.sum_congr rfl fun k _ => ?_
    rw [truncf_apply, truncf_apply, mulf_apply, broadcastTo_a1_ab_apply]

/-! ## Each window's block at a grid point, as entries of its array -/

variable (V : (c : Dev nD) → (b : Ref sig .tc) → Buf (Elt Ideal) ((c : Thread nD τ).loc b))

theorem zeros2 : (![0, 0] : Fin 2 → Nat) = fun _ => 0 := funext fun a => by fin_cases a <;> rfl

theorem zeros1 : (![0] : Fin 1 → Nat) = fun _ => 0 := funext fun a => by fin_cases a; rfl

/-- The windows' block indices over the grid: the three node arrays and the output are at block `(t, 0)` at point `t`,
    the two weight matrices at block `(0, 0)` and the bias at block `0` throughout. -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

theorem point_lt (t : Fin cfg2.N) : t.val < 100 := by
  have h : cfg2.N = 100 := N_2
  have := t.isLt
  omega

/-- Row `p` of the block at point `t` is row `5000 t + p` of the array. -/
def row (t : Fin cfg2.N) (p : Fin 5000) : Fin 500000 :=
  ⟨5000 * t.val + p.val, by have := point_lt t; have := p.isLt; omega⟩

/-- Entry `(p, k)` of the `h` block at point `t` is entry `(5000 t + p, k)` of the array. -/
theorem blk_h (c : Dev nD) (t : Fin cfg2.N) (p : Fin 5000) (k : Fin 128) :
    (iblk2 V c 0 t : Vec Ideal S5000x128 .f32) (ix2 p k) = (V c main_v26 : S500000x128.Idx → Ideal .f32) (ix2 (row t p) k) := by
  obtain ⟨e0, e1, -⟩ := block_index t
  unfold iblk2
  rw [View.read_apply]
  show V c main_v26 _ = V c main_v26 _
  congr 1
  funext a
  apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Entry `(p, k)` of the `ns` block at point `t` is entry `(5000 t + p, k)` of the array. -/
theorem blk_ns (c : Dev nD) (t : Fin cfg2.N) (p : Fin 5000) (k : Fin 128) :
    (iblk2 V c 1 t : Vec Ideal S5000x128 .f32) (ix2 p k) = (V c main_v36 : S500000x128.Idx → Ideal .f32) (ix2 (row t p) k) := by
  obtain ⟨-, -, e0, e1, -⟩ := block_index t
  unfold iblk2
  rw [View.read_apply]
  show V c main_v36 _ = V c main_v36 _
  congr 1
  funext a
  apply Fin.ext
  match a with
  | ⟨0, _⟩ => show win2_1.index t (0 : Fin 2) * 5000 + 1 * p.val = 5000 * t.val + p.val; rw [e0]; omega
  | ⟨1, _⟩ => show win2_1.index t (1 : Fin 2) * 128 + 1 * k.val = k.val; rw [e1]; omega

/-- Entry `(p, 0)` of the `idg` block at point `t` is entry `(5000 t + p, 0)` of the array. -/
theorem blk_idg (c : Dev nD) (t : Fin cfg2.N) (p : Fin 5000) (u : Fin 1) :
    (iblk2 V c 2 t : Vec Ideal S5000x1 .f32) (ix2 p u) = (V c main_v9 : S500000x1.Idx → Ideal .f32) (ix2 (row t p) u) := by
  obtain ⟨-, -, -, -, e0, e1, -⟩ := block_index t
  unfold iblk2
  rw [View.read_apply]
  show V c main_v9 _ = V c main_v9 _
  congr 1
  funext a
  apply Fin.ext
  match a with
  | ⟨0, _⟩ => show win2_2.index t (0 : Fin 2) * 5000 + 1 * p.val = 5000 * t.val + p.val; rw [e0]; omega
  | ⟨1, _⟩ => show win2_2.index t (1 : Fin 2) * 1 + 1 * u.val = u.val; rw [e1]; omega

/-- The `ws` block at every point is the whole matrix. -/
theorem blk_ws (c : Dev nD) (t : Fin cfg2.N) (k : Fin 128) (q : Fin 128) :
    (iblk2 V c 3 t : Vec Ideal S128x128 .f32) (ix2 k q) = (V c main_v38 : S128x128.Idx → Ideal .f32) (ix2 k q) := by
  obtain ⟨-, -, -, -, -, -, e0, e1, -⟩ := block_index t
  unfold iblk2
  rw [View.read_apply]
  show V c main_v38 _ = V c main_v38 _
  congr 1
  funext a
  apply Fin.ext
  match a with
  | ⟨0, _⟩ => show win2_3.index t (0 : Fin 2) * 128 + 1 * k.val = k.val; rw [e0]; omega
  | ⟨1, _⟩ => show win2_3.index t (1 : Fin 2) * 128 + 1 * q.val = q.val; rw [e1]; omega

/-- The `wn` block at every point is the whole matrix. -/
theorem blk_wn (c : Dev nD) (t : Fin cfg2.N) (k : Fin 128) (q : Fin 128) :
    (iblk2 V c 4 t : Vec Ideal S128x128 .f32) (ix2 k q) = (V c main_v40 : S128x128.Idx → Ideal .f32) (ix2 k q) := by
  obtain ⟨-, -, -, -, -, -, -, -, e0, e1, -⟩ := block_index t
  unfold iblk2
  rw [View.read_apply]
  show V c main_v40 _ = V c main_v40 _
  congr 1
  funext a
  apply Fin.ext
  match a with
  | ⟨0, _⟩ => show win2_4.index t (0 : Fin 2) * 128 + 1 * k.val = k.val; rw [e0]; omega
  | ⟨1, _⟩ => show win2_4.index t (1 : Fin 2) * 128 + 1 * q.val = q.val; rw [e1]; omega

/-- The bias block at every point is the whole vector. -/
theorem blk_b (c : Dev nD) (t : Fin cfg2.N) (q : Fin 128) :
    (iblk2 V c 5 t : Vec Ideal S128 .f32) (ix1 q) = (V c main_v42 : S128.Idx → Ideal .f32) (ix1 q) := by
  obtain ⟨-, -, -, -, -, -, -, -, -, -, e0, -⟩ := block_index t
  unfold iblk2
  rw [View.read_apply]
  show V c main_v42 _ = V c main_v42 _
  congr 1
  funext a
  apply Fin.ext
  match a with
  | ⟨0, _⟩ => show win2_5.index t (0 : Fin 1) * 128 + 1 * q.val = q.val; rw [e0]; omega

/-- Entry `(p, q)` of the output block at point `t` sits at `(5000 t + p, q)` in the output array. -/
theorem out_emb (t : Fin cfg2.N) (p : Fin 5000) (q : Fin 128) :
    ((cfg2.win 6).blk t).view.emb (ix2 p q) = (ix2 (row t p) q : S500000x128.Idx) := by
  obtain ⟨-, -, -, -, -, -, -, -, -, -, -, e0, e1⟩ := block_index t
  funext a
  apply Fin.ext
  match a with
  | ⟨0, _⟩ => show win2_6.index t (0 : Fin 2) * 5000 + 1 * p.val = 5000 * t.val + p.val; rw [e0]; omega
  | ⟨1, _⟩ => show win2_6.index t (1 : Fin 2) * 128 + 1 * q.val = q.val; rw [e1]; omega

/-! ## What a grid point writes back, and the whole array -/

/-- The layer of the six arrays the launch finds. -/
abbrev result (c : Dev nD) : FVec Ideal ⟨2, ![500000, 128]⟩ .f32 :=
  Cert.Sage.layer (V c main_v26) (V c main_v36) (V c main_v9) (V c main_v38) (V c main_v40) (V c main_v42)

/-- Point `t` writes back rows `5000 t … 5000 t + 4999` of the layer. -/
theorem flushed_eq (c : Dev nD) (t : Fin cfg2.N) :
    (dat2 (F := Ideal) V c).flushed 6 t = ((cfg2.win 6).blk t).view.read (Elt Ideal) (result V c) := by
  show (cfg2.win 6).cut (grid2.coords t) ((dat2 V c).after 6 t) = _
  rw [after2_6]
  unfold out2_6
  rw [View.canon_unit_zero zeros2]
  simp only [View.ld_unit_zero (S := S5000x128) zeros2, View.ld_unit_zero (S := S5000x1) zeros2,
    View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  rw [View.read_apply, out_emb t p q]
  refine (pay_apply _ _ _ _ _ _ p q).trans ?_
  refine Eq.trans ?_ (cast_eq rfl _).symm
  show _ = Cert.Sage.layer _ _ _ _ _ _ (ix2 (row t p) q)
  unfold Cert.Sage.layer
  refine congrArg₂ max (congrArg₂ (· + ·) (congrArg₂ (· + ·) (Finset.sum_congr rfl fun k _ => ?_)
    (Finset.sum_congr rfl fun k _ => ?_)) ?_) rfl
  · exact congrArg₂ (· * ·) (blk_h V c t p k) (blk_ws V c t k q)
  · exact congrArg₂ (· * ·) (congrArg₂ (· * ·) (blk_ns V c t p k) (blk_idg V c t p 0)) (blk_wn V c t k q)
  · exact blk_b V c t q

/-- An index of the output array is in point `t`'s block iff each coordinate is in the block's range on its axis. -/
theorem mem_blk (t : Fin cfg2.N) (i : S500000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v43).slice (win2_6.rect t)).set ↔ _
  rw [View.set_slice_whole, Rect.mem_set_unit]
  exact Iff.rfl

/-- Every entry of the output array is in some point's block: row `r` is in the block of point `r / 5000`. -/
theorem cover (i : S500000x128.Idx) :
    ∃ t : Fin cfg2.N, (cfg2.win 6).flush t = true ∧ i ∈ ((cfg2.win 6).blk t).view.set := by
  have hi0 : (i 0).val < 500000 := (i 0).isLt
  have hi1 : (i 1).val < 128 := (i 1).isLt
  have hN : cfg2.N = 100 := N_2
  let t : Fin cfg2.N := ⟨(i 0).val / 5000, by omega⟩
  have ht : t.val = (i 0).val / 5000 := rfl
  obtain ⟨-, -, -, -, -, -, -, -, -, -, -, e0, e1⟩ := block_index t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; rw [e0]; omega
  | ⟨1, _⟩ => show win2_6.index t (1 : Fin 2) * 128 ≤ (i 1).val ∧ (i 1).val < win2_6.index t (1 : Fin 2) * 128 + 128; rw [e1]; omega

/-- THE OUTPUT ARRAY after the launch is the layer of the six arrays the launch finds. -/
theorem final2 (c : Dev nD) :
    (dat2 (F := Ideal) V c).arrAt 6 cfg2.N
      = Cert.Sage.layer (V c main_v26) (V c main_v36) (V c main_v9) (V c main_v38) (V c main_v40) (V c main_v42) :=
  (dat2 (F := Ideal) V c).arrAt_eq_of_cover 6 (result V c) (fun t _ => flushed_eq V c t) cover

end Cert.Sage.K2

end
-- ==== Proof.KernelLayer3.lean ====
/-
  The third layer's launch, read as a function of whole arrays.

  The launch walks 100 grid points. At point t it holds rows 5000 t … 5000 t + 4999 of the node features h, of the
  neighbour sum ns and of the inverse degree idg, and the whole of the two weight matrices and of the bias; it writes
  rows 5000 t … 5000 t + 4999 of the output. Entry (p, q) of what it writes depends on row p of the h block, row p of
  the ns block, entry (p, 0) of the idg block, column q of each weight matrix and entry q of the bias:

      max ((∑ k, h[p, k] · Ws[k, q]) + (∑ k, (ns[p, k] · idg[p, 0]) · Wn[k, q]) + b[q]) 0.

  Over the extended reals the narrowing of the products' operands is the identity, a product into the zero accumulator
  is the plain finite sum, and the scalar zero broadcast is 0. The 100 blocks of 5000 rows tile the 500000 rows, so the
  output array ends as `Cert.Sage.layer` of the six arrays the launch finds.
-/
import proofs.«180075_j24988119728557_1_alg».proof.Proof.Gen.KernelIdeal.Frame
import proofs.«180075_j24988119728557_1_alg».proof.Proof.Spec
import proofs.«180075_j24988119728557_1_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.Sage.K3

open Cert.KernelIdeal Cert.KernelIdeal.Gen
open Idealize.ShloMosaic Idealize.ShloMosaic.TcCoe Idealize.SL.Sem Idealize.ShloMosaic.ValueIdx
open Idealize.ShloMosaic.Pipeline (Dat)

/-! ## The body's arithmetic at an entry -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's contraction record is the plain one: left axis 1 against right axis 0, no batch axes. -/
theorem dot_eq_plain : dot_S5000x128_S128x128_S5000x128_1_0_0_1_n_n = DotDims.plain 5000 128 128 := rfl

/-- Entry `(p, q)` of the body's result from the six blocks it loads: row `p` of `h` against column `q` of `ws`, plus row
    `p` of `ns` scaled by `idg (p, 0)` against column `q` of `wn`, plus `b q`, clipped below at zero. -/
theorem pay_apply (h ns : Vec Ideal S5000x128 .f32) (idg : Vec Ideal S5000x1 .f32) (ws wn : Vec Ideal S128x128 .f32)
    (b : Vec Ideal S128 .f32) (p : Fin 5000) (q : Fin 128) :
    k3_pay1 (F := Ideal) h ns idg ws wn b (ix2 p q)
      = max (((∑ k : Fin 128, h (ix2 p k) * ws (ix2 k q))
          + (∑ k : Fin 128, (ns (ix2 p k) * idg (ix2 p (0 : Fin 1))) * wn (ix2 k q))) + b (ix1 q)) 0 := by
  unfold k3_pay1
  simp only [shapeCast_self]
  rw [maximumf_apply, addf_apply, addf_apply, broadcast_apply, dot_eq_plain]
  rw [broadcastTo_1b_ab_apply, shapeCast_a_1a_apply]
  refine congrArg₂ max (congrArg₂ (· + ·) (congrArg₂ (· + ·) ?_ ?_) rfl) Ideal.ofBits_zero_f32
  · refine (Cert.PlainMatmul.apply none _ _ p q).trans ?_
    rfl
  · refine (Cert.PlainMatmul.apply none _ _ p q).trans ?_
    refine Finset.sum_congr rfl fun k _ => ?_
    rw [truncf_apply, truncf_apply, mulf_apply, broadcastTo_a1_ab_apply]

/-! ## Each window's block at a grid point, as entries of its array -/

variable (V : (c : Dev nD) → (b : Ref sig .tc) → Buf (Elt Ideal) ((c : Thread nD τ).loc b))

theorem zeros2 : (![0, 0] : Fin 2 → Nat) = fun _ => 0 := funext fun a => by fin_cases a <;> rfl

theorem zeros1 : (![0] : Fin 1 → Nat) = fun _ => 0 := funext fun a => by fin_cases a; rfl

/-- The windows' block indices over the grid: the three node arrays and the output are at block `(t, 0)` at point `t`,
    the two weight matrices at block `(0, 0)` and the bias at block `0` throughout. -/
theorem block_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0 :=
  (by decide +kernel : ∀ t : Fin grid3.N, _)

theorem point_lt (t : Fin cfg3.N) : t.val < 100 := by
  have h : cfg3.N = 100 := N_3
  have := t.isLt
  omega

/-- Row `p` of the block at point `t` is row `5000 t + p` of the array. -/
def row (t : Fin cfg3.N) (p : Fin 5000) : Fin 500000 :=
  ⟨5000 * t.val + p.val, by have := point_lt t; have := p.isLt; omega⟩

/-- Entry `(p, k)` of the `h` block at point `t` is entry `(5000 t + p, k)` of the array. -/
theorem blk_h (c : Dev nD) (t : Fin cfg3.N) (p : Fin 5000) (k : Fin 128) :
    (iblk3 V c 0 t : Vec Ideal S5000x128 .f32) (ix2 p k) = (V c main_v43 : S500000x128.Idx → Ideal .f32) (ix2 (row t p) k) := by
  obtain ⟨e0, e1, -⟩ := block_index t
  unfold iblk3
  rw [View.read_apply]
  show V c main_v43 _ = V c main_v43 _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

/-- Entry `(p, k)` of the `ns` block at point `t` is entry `(5000 t + p, k)` of the array. -/
theorem blk_ns (c : Dev nD) (t : Fin cfg3.N) (p : Fin 5000) (k : Fin 128) :
    (iblk3 V c 1 t : Vec Ideal S5000x128 .f32) (ix2 p k) = (V c main_v53 : S500000x128.Idx → Ideal .f32) (ix2 (row t p) k) := by
  obtain ⟨-, -, e0, e1, -⟩ := block_index t
  unfold iblk3
  rw [View.read_apply]
  show V c main_v53 _ = V c main_v53 _
  congr 1
  funext a
  apply Fin.ext
  match a with
  | ⟨0, _⟩ => show win3_1.index t (0 : Fin 2) * 5000 + 1 * p.val = 5000 * t.val + p.val; rw [e0]; omega
  | ⟨1, _⟩ => show win3_1.index t (1 : Fin 2) * 128 + 1 * k.val = k.val; rw [e1]; omega

/-- Entry `(p, 0)` of the `idg` block at point `t` is entry `(5000 t + p, 0)` of the array. -/
theorem blk_idg (c : Dev nD) (t : Fin cfg3.N) (p : Fin 5000) (u : Fin 1) :
    (iblk3 V c 2 t : Vec Ideal S5000x1 .f32) (ix2 p u) = (V c main_v9 : S500000x1.Idx → Ideal .f32) (ix2 (row t p) u) := by
  obtain ⟨-, -, -, -, e0, e1, -⟩ := block_index t
  unfold iblk3
  rw [View.read_apply]
  show V c main_v9 _ = V c main_v9 _
  congr 1
  funext a
  apply Fin.ext
  match a with
  | ⟨0, _⟩ => show win3_2.index t (0 : Fin 2) * 5000 + 1 * p.val = 5000 * t.val + p.val; rw [e0]; omega
  | ⟨1, _⟩ => show win3_2.index t (1 : Fin 2) * 1 + 1 * u.val = u.val; rw [e1]; omega

/-- The `ws` block at every point is the whole matrix. -/
theorem blk_ws (c : Dev nD) (t : Fin cfg3.N) (k : Fin 128) (q : Fin 128) :
    (iblk3 V c 3 t : Vec Ideal S128x128 .f32) (ix2 k q) = (V c main_v55 : S128x128.Idx → Ideal .f32) (ix2 k q) := by
  obtain ⟨-, -, -, -, -, -, e0, e1, -⟩ := block_index t
  unfold iblk3
  rw [View.read_apply]
  show V c main_v55 _ = V c main_v55 _
  congr 1
  funext a
  apply Fin.ext
  match a with
  | ⟨0, _⟩ => show win3_3.index t (0 : Fin 2) * 128 + 1 * k.val = k.val; rw [e0]; omega
  | ⟨1, _⟩ => show win3_3.index t (1 : Fin 2) * 128 + 1 * q.val = q.val; rw [e1]; omega

/-- The `wn` block at every point is the whole matrix. -/
theorem blk_wn (c : Dev nD) (t : Fin cfg3.N) (k : Fin 128) (q : Fin 128) :
    (iblk3 V c 4 t : Vec Ideal S128x128 .f32) (ix2 k q) = (V c main_v57 : S128x128.Idx → Ideal .f32) (ix2 k q) := by
  obtain ⟨-, -, -, -, -, -, -, -, e0, e1, -⟩ := block_index t
  unfold iblk3
  rw [View.read_apply]
  show V c main_v57 _ = V c main_v57 _
  congr 1
  funext a
  apply Fin.ext
  match a with
  | ⟨0, _⟩ => show win3_4.index t (0 : Fin 2) * 128 + 1 * k.val = k.val; rw [e0]; omega
  | ⟨1, _⟩ => show win3_4.index t (1 : Fin 2) * 128 + 1 * q.val = q.val; rw [e1]; omega

/-- The bias block at every point is the whole vector. -/
theorem blk_b (c : Dev nD) (t : Fin cfg3.N) (q : Fin 128) :
    (iblk3 V c 5 t : Vec Ideal S128 .f32) (ix1 q) = (V c main_v59 : S128.Idx → Ideal .f32) (ix1 q) := by
  obtain ⟨-, -, -, -, -, -, -, -, -, -, e0, -⟩ := block_index t
  unfold iblk3
  rw [View.read_apply]
  show V c main_v59 _ = V c main_v59 _
  congr 1
  funext a
  apply Fin.ext
  match a with
  | ⟨0, _⟩ => show win3_5.index t (0 : Fin 1) * 128 + 1 * q.val = q.val; rw [e0]; omega

/-- Entry `(p, q)` of the output block at point `t` sits at `(5000 t + p, q)` in the output array. -/
theorem out_emb (t : Fin cfg3.N) (p : Fin 5000) (q : Fin 128) :
    ((cfg3.win 6).blk t).view.emb (ix2 p q) = (ix2 (row t p) q : S500000x128.Idx) := by
  obtain ⟨-, -, -, -, -, -, -, -, -, -, -, e0, e1⟩ := block_index t
  funext a
  apply Fin.ext
  match a with
  | ⟨0, _⟩ => show win3_6.index t (0 : Fin 2) * 5000 + 1 * p.val = 5000 * t.val + p.val; rw [e0]; omega
  | ⟨1, _⟩ => show win3_6.index t (1 : Fin 2) * 128 + 1 * q.val = q.val; rw [e1]; omega

/-! ## What a grid point writes back, and the whole array -/

/-- The layer of the six arrays the launch finds. -/
abbrev result (c : Dev nD) : FVec Ideal ⟨2, ![500000, 128]⟩ .f32 :=
  Cert.Sage.layer (V c main_v43) (V c main_v53) (V c main_v9) (V c main_v55) (V c main_v57) (V c main_v59)

/-- Point `t` writes back rows `5000 t … 5000 t + 4999` of the layer. -/
theorem flushed_eq (c : Dev nD) (t : Fin cfg3.N) :
    (dat3 (F := Ideal) V c).flushed 6 t = ((cfg3.win 6).blk t).view.read (Elt Ideal) (result V c) := by
  show (cfg3.win 6).cut (grid3.coords t) ((dat3 V c).after 6 t) = _
  rw [after3_6]
  unfold out3_6
  rw [View.canon_unit_zero zeros2]
  simp only [View.ld_unit_zero (S := S5000x128) zeros2, View.ld_unit_zero (S := S5000x1) zeros2,
    View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  rw [View.read_apply, out_emb t p q]
  refine (pay_apply _ _ _ _ _ _ p q).trans ?_
  refine Eq.trans ?_ (cast_eq rfl _).symm
  show _ = Cert.Sage.layer _ _ _ _ _ _ (ix2 (row t p) q)
  unfold Cert.Sage.layer
  refine congrArg₂ max (congrArg₂ (· + ·) (congrArg₂ (· + ·) (Finset.sum_congr rfl fun k _ => ?_)
    (Finset.sum_congr rfl fun k _ => ?_)) ?_) rfl
  · exact congrArg₂ (· * ·) (blk_h V c t p k) (blk_ws V c t k q)
  · exact congrArg₂ (· * ·) (congrArg₂ (· * ·) (blk_ns V c t p k) (blk_idg V c t p 0)) (blk_wn V c t k q)
  · exact blk_b V c t q

/-- An index of the output array is in point `t`'s block iff each coordinate is in the block's range on its axis. -/
theorem mem_blk (t : Fin cfg3.N) (i : S500000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v60).slice (win3_6.rect t)).set ↔ _
  rw [View.set_slice_whole, Rect.mem_set_unit]
  exact Iff.rfl

/-- Every entry of the output array is in some point's block: row `r` is in the block of point `r / 5000`. -/
theorem cover (i : S500000x128.Idx) :
    ∃ t : Fin cfg3.N, (cfg3.win 6).flush t = true ∧ i ∈ ((cfg3.win 6).blk t).view.set := by
  have hi0 : (i 0).val < 500000 := (i 0).isLt
  have hi1 : (i 1).val < 128 := (i 1).isLt
  have hN : cfg3.N = 100 := N_3
  let t : Fin cfg3.N := ⟨(i 0).val / 5000, by omega⟩
  have ht : t.val = (i 0).val / 5000 := rfl
  obtain ⟨-, -, -, -, -, -, -, -, -, -, -, e0, e1⟩ := block_index t
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; rw [e0]; omega
  | ⟨1, _⟩ => show win3_6.index t (1 : Fin 2) * 128 ≤ (i 1).val ∧ (i 1).val < win3_6.index t (1 : Fin 2) * 128 + 128; rw [e1]; omega

/-- THE OUTPUT ARRAY after the launch is the layer of the six arrays the launch finds. -/
theorem final3 (c : Dev nD) :
    (dat3 (F := Ideal) V c).arrAt 6 cfg3.N
      = Cert.Sage.layer (V c main_v43) (V c main_v53) (V c main_v9) (V c main_v55) (V c main_v57) (V c main_v59) :=
  (dat3 (F := Ideal) V c).arrAt_eq_of_cover 6 (result V c) (fun t _ => flushed_eq V c t) cover

end Cert.Sage.K3

end
-- ==== Proof.Stretch1.lean ====
/-
  What the first host stretch of the kernel's program leaves in the buffers the next region reads, in terms of what the
  region before it left: each buffer read back through the stretch's operations. The features pass through untouched;
  the neighbour sum is `agg` of them and the two edge arrays; the inverse in-degree column, the weight slices and the
  bias row are functions of the arguments alone.
-/
import proofs.«180075_j24988119728557_1_alg».proof.Proof.Gen.KernelIdeal.Frame
import proofs.«180075_j24988119728557_1_alg».proof.Proof.HostFns
import Idealize.ShloMosaic.Lib.StableHlo.Run

set_option maxHeartbeats 4000000

noncomputable section

namespace Cert.Sage.Stretch1

open Cert.KernelIdeal Cert.KernelIdeal.Gen Cert.Sage.HostK
open Idealize.ShloMosaic Idealize.ShloMosaic.TcCoe Idealize.SL.Sem Idealize.ShloMosaic.StableHlo

variable (m : (ℓ : Loc nD τ sig) → Buf (Elt Ideal) ℓ) (ρ : Dev nD → PrngReg)

/-- The features (the projection's result) are not written by the stretch. -/
theorem feat (c : Dev nD) : W2 m ρ c (Proc.devRef .tc main_v0) = W1 m ρ c (Proc.devRef .tc main_v0) := by
  show StableHlo.after hostOps1 (W1 m ρ c) (Proc.devRef .tc main_v0) = _
  after_results_simp

/-- The neighbour sum of the features. -/
theorem nsum (c : Dev nD) : W2 m ρ c (Proc.devRef .tc main_v19)
    = agg (W1 m ρ c (Proc.devRef .tc main_v0)) (W1 m ρ c (Proc.devRef .tc main_arg1)) (W1 m ρ c (Proc.devRef .tc main_arg2)) := by
  show StableHlo.after hostOps1 (W1 m ρ c) (Proc.devRef .tc main_v19) = _
  after_results_simp
  rfl

/-- The inverse in-degree column. -/
theorem idg (c : Dev nD) : W2 m ρ c (Proc.devRef .tc main_v9) = invDeg (W1 m ρ c (Proc.devRef .tc main_arg2)) := by
  show StableHlo.after hostOps1 (W1 m ρ c) (Proc.devRef .tc main_v9) = _
  after_results_simp
  rfl

/-- The layer's slice of `W_self`. -/
theorem wself (c : Dev nD) : W2 m ρ c (Proc.devRef .tc main_v21) = wsl0 (W1 m ρ c (Proc.devRef .tc main_arg5)) := by
  show StableHlo.after hostOps1 (W1 m ρ c) (Proc.devRef .tc main_v21) = _
  after_results_simp
  rfl

/-- The layer's slice of `W_neigh`. -/
theorem wneigh (c : Dev nD) : W2 m ρ c (Proc.devRef .tc main_v23) = wsl0 (W1 m ρ c (Proc.devRef .tc main_arg6)) := by
  show StableHlo.after hostOps1 (W1 m ρ c) (Proc.devRef .tc main_v23) = _
  after_results_simp
  rfl

/-- The layer's bias row. -/
theorem bias (c : Dev nD) : W2 m ρ c (Proc.devRef .tc main_v25) = bsl0 (W1 m ρ c (Proc.devRef .tc main_arg7)) := by
  show StableHlo.after hostOps1 (W1 m ρ c) (Proc.devRef .tc main_v25) = _
  after_results_simp
  rfl

/-- The arguments the later stretches read are not written. -/
theorem arg1 (c : Dev nD) : W2 m ρ c (Proc.devRef .tc main_arg1) = W1 m ρ c (Proc.devRef .tc main_arg1) := by
  show StableHlo.after hostOps1 (W1 m ρ c) (Proc.devRef .tc main_arg1) = _
  after_results_simp
theorem arg2 (c : Dev nD) : W2 m ρ c (Proc.devRef .tc main_arg2) = W1 m ρ c (Proc.devRef .tc main_arg2) := by
  show StableHlo.after hostOps1 (W1 m ρ c) (Proc.devRef .tc main_arg2) = _
  after_results_simp
theorem arg5 (c : Dev nD) : W2 m ρ c (Proc.devRef .tc main_arg5) = W1 m ρ c (Proc.devRef .tc main_arg5) := by
  show StableHlo.after hostOps1 (W1 m ρ c) (Proc.devRef .tc main_arg5) = _
  after_results_simp
theorem arg6 (c : Dev nD) : W2 m ρ c (Proc.devRef .tc main_arg6) = W1 m ρ c (Proc.devRef .tc main_arg6) := by
  show StableHlo.after hostOps1 (W1 m ρ c) (Proc.devRef .tc main_arg6) = _
  after_results_simp
theorem arg7 (c : Dev nD) : W2 m ρ c (Proc.devRef .tc main_arg7) = W1 m ρ c (Proc.devRef .tc main_arg7) := by
  show StableHlo.after hostOps1 (W1 m ρ c) (Proc.devRef .tc main_arg7) = _
  after_results_simp

end Cert.Sage.Stretch1

end
-- ==== Proof.Stretch2.lean ====
/-
  What the second host stretch of the kernel's program leaves in the buffers the next region reads, in terms of what the
  region before it left: each buffer read back through the stretch's operations. The features pass through untouched;
  the neighbour sum is `agg` of them and the two edge arrays; the inverse in-degree column, the weight slices and the
  bias row are functions of the arguments alone.
-/
import proofs.«180075_j24988119728557_1_alg».proof.Proof.Gen.KernelIdeal.Frame
import proofs.«180075_j24988119728557_1_alg».proof.Proof.HostFns
import Idealize.ShloMosaic.Lib.StableHlo.Run

set_option maxHeartbeats 4000000

noncomputable section

namespace Cert.Sage.Stretch2

open Cert.KernelIdeal Cert.KernelIdeal.Gen Cert.Sage.HostK
open Idealize.ShloMosaic Idealize.ShloMosaic.TcCoe Idealize.SL.Sem Idealize.ShloMosaic.StableHlo

variable (m : (ℓ : Loc nD τ sig) → Buf (Elt Ideal) ℓ) (ρ : Dev nD → PrngReg)

/-- The features (the first layer's result) are not written by the stretch. -/
theorem feat (c : Dev nD) : W4 m ρ c (Proc.devRef .tc main_v26) = W3 m ρ c (Proc.devRef .tc main_v26) := by
  show StableHlo.after hostOps2 (W3 m ρ c) (Proc.devRef .tc main_v26) = _
  after_results_simp

/-- The neighbour sum of the features. -/
theorem nsum (c : Dev nD) : W4 m ρ c (Proc.devRef .tc main_v36)
    = agg (W3 m ρ c (Proc.devRef .tc main_v26)) (W3 m ρ c (Proc.devRef .tc main_arg1)) (W3 m ρ c (Proc.devRef .tc main_arg2)) := by
  show StableHlo.after hostOps2 (W3 m ρ c) (Proc.devRef .tc main_v36) = _
  after_results_simp
  rfl

/-- The inverse in-degree column, computed once before the first layer, is not written again. -/
theorem idg (c : Dev nD) : W4 m ρ c (Proc.devRef .tc main_v9) = W3 m ρ c (Proc.devRef .tc main_v9) := by
  show StableHlo.after hostOps2 (W3 m ρ c) (Proc.devRef .tc main_v9) = _
  after_results_simp

/-- The layer's slice of `W_self`. -/
theorem wself (c : Dev nD) : W4 m ρ c (Proc.devRef .tc main_v38) = wsl1 (W3 m ρ c (Proc.devRef .tc main_arg5)) := by
  show StableHlo.after hostOps2 (W3 m ρ c) (Proc.devRef .tc main_v38) = _
  after_results_simp
  rfl

/-- The layer's slice of `W_neigh`. -/
theorem wneigh (c : Dev nD) : W4 m ρ c (Proc.devRef .tc main_v40) = wsl1 (W3 m ρ c (Proc.devRef .tc main_arg6)) := by
  show StableHlo.after hostOps2 (W3 m ρ c) (Proc.devRef .tc main_v40) = _
  after_results_simp
  rfl

/-- The layer's bias row. -/
theorem bias (c : Dev nD) : W4 m ρ c (Proc.devRef .tc main_v42) = bsl1 (W3 m ρ c (Proc.devRef .tc main_arg7)) := by
  show StableHlo.after hostOps2 (W3 m ρ c) (Proc.devRef .tc main_v42) = _
  after_results_simp
  rfl

/-- The arguments the last stretch reads are not written. -/
theorem arg1 (c : Dev nD) : W4 m ρ c (Proc.devRef .tc main_arg1) = W3 m ρ c (Proc.devRef .tc main_arg1) := by
  show StableHlo.after hostOps2 (W3 m ρ c) (Proc.devRef .tc main_arg1) = _
  after_results_simp
theorem arg2 (c : Dev nD) : W4 m ρ c (Proc.devRef .tc main_arg2) = W3 m ρ c (Proc.devRef .tc main_arg2) := by
  show StableHlo.after hostOps2 (W3 m ρ c) (Proc.devRef .tc main_arg2) = _
  after_results_simp
theorem arg5 (c : Dev nD) : W4 m ρ c (Proc.devRef .tc main_arg5) = W3 m ρ c (Proc.devRef .tc main_arg5) := by
  show StableHlo.after hostOps2 (W3 m ρ c) (Proc.devRef .tc main_arg5) = _
  after_results_simp
theorem arg6 (c : Dev nD) : W4 m ρ c (Proc.devRef .tc main_arg6) = W3 m ρ c (Proc.devRef .tc main_arg6) := by
  show StableHlo.after hostOps2 (W3 m ρ c) (Proc.devRef .tc main_arg6) = _
  after_results_simp
theorem arg7 (c : Dev nD) : W4 m ρ c (Proc.devRef .tc main_arg7) = W3 m ρ c (Proc.devRef .tc main_arg7) := by
  show StableHlo.after hostOps2 (W3 m ρ c) (Proc.devRef .tc main_arg7) = _
  after_results_simp

end Cert.Sage.Stretch2

end
-- ==== Proof.Stretch3.lean ====
/-
  What the third host stretch of the kernel's program leaves in the buffers the next region reads, in terms of what the
  region before it left: each buffer read back through the stretch's operations. The features pass through untouched;
  the neighbour sum is `agg` of them and the two edge arrays; the inverse in-degree column, the weight slices and the
  bias row are functions of the arguments alone.
-/
import proofs.«180075_j24988119728557_1_alg».proof.Proof.Gen.KernelIdeal.Frame
import proofs.«180075_j24988119728557_1_alg».proof.Proof.HostFns
import Idealize.ShloMosaic.Lib.StableHlo.Run

set_option maxHeartbeats 4000000

noncomputable section

namespace Cert.Sage.Stretch3

open Cert.KernelIdeal Cert.KernelIdeal.Gen Cert.Sage.HostK
open Idealize.ShloMosaic Idealize.ShloMosaic.TcCoe Idealize.SL.Sem Idealize.ShloMosaic.StableHlo

variable (m : (ℓ : Loc nD τ sig) → Buf (Elt Ideal) ℓ) (ρ : Dev nD → PrngReg)

/-- The features (the second layer's result) are not written by the stretch. -/
theorem feat (c : Dev nD) : W6 m ρ c (Proc.devRef .tc main_v43) = W5 m ρ c (Proc.devRef .tc main_v43) := by
  show StableHlo.after hostOps3 (W5 m ρ c) (Proc.devRef .tc main_v43) = _
  after_results_simp

/-- The neighbour sum of the features. -/
theorem nsum (c : Dev nD) : W6 m ρ c (Proc.devRef .tc main_v53)
    = agg (W5 m ρ c (Proc.devRef .tc main_v43)) (W5 m ρ c (Proc.devRef .tc main_arg1)) (W5 m ρ c (Proc.devRef .tc main_arg2)) := by
  show StableHlo.after hostOps3 (W5 m ρ c) (Proc.devRef .tc main_v53) = _
  after_results_simp
  rfl

/-- The inverse in-degree column is not written again. -/
theorem idg (c : Dev nD) : W6 m ρ c (Proc.devRef .tc main_v9) = W5 m ρ c (Proc.devRef .tc main_v9) := by
  show StableHlo.after hostOps3 (W5 m ρ c) (Proc.devRef .tc main_v9) = _
  after_results_simp

/-- The layer's slice of `W_self`. -/
theorem wself (c : Dev nD) : W6 m ρ c (Proc.devRef .tc main_v55) = wsl2 (W5 m ρ c (Proc.devRef .tc main_arg5)) := by
  show StableHlo.after hostOps3 (W5 m ρ c) (Proc.devRef .tc main_v55) = _
  after_results_simp
  rfl

/-- The layer's slice of `W_neigh`. -/
theorem wneigh (c : Dev nD) : W6 m ρ c (Proc.devRef .tc main_v57) = wsl2 (W5 m ρ c (Proc.devRef .tc main_arg6)) := by
  show StableHlo.after hostOps3 (W5 m ρ c) (Proc.devRef .tc main_v57) = _
  after_results_simp
  rfl

/-- The layer's bias row. -/
theorem bias (c : Dev nD) : W6 m ρ c (Proc.devRef .tc main_v59) = bsl2 (W5 m ρ c (Proc.devRef .tc main_arg7)) := by
  show StableHlo.after hostOps3 (W5 m ρ c) (Proc.devRef .tc main_v59) = _
  after_results_simp
  rfl

end Cert.Sage.Stretch3

end
-- ==== Proof.KernelValue.lean ====
/-
  The kernel's program, region by region and stretch by stretch, ends with its result buffer at the network term of the
  arguments.

  Each region leaves its output array at the specification's stage of the arrays it was entered with (the block-by-block
  reading of that region), an input window's array as it found it, and every other buffer untouched; each host stretch
  in between passes the features through, forms their neighbour sum, and slices the layer's weights and bias. Chaining
  these from the launch memory gives the projection, then the three layers, of the argument arrays.
-/
import proofs.«180075_j24988119728557_1_alg».proof.Proof.Gen.KernelIdeal.Frame
import proofs.«180075_j24988119728557_1_alg».proof.Proof.NamedRun
import proofs.«180075_j24988119728557_1_alg».proof.Proof.NetTerm
import proofs.«180075_j24988119728557_1_alg».proof.Proof.KernelProj
import proofs.«180075_j24988119728557_1_alg».proof.Proof.KernelLayer1
import proofs.«180075_j24988119728557_1_alg».proof.Proof.KernelLayer2
import proofs.«180075_j24988119728557_1_alg».proof.Proof.KernelLayer3
import proofs.«180075_j24988119728557_1_alg».proof.Proof.Stretch1
import proofs.«180075_j24988119728557_1_alg».proof.Proof.Stretch2
import proofs.«180075_j24988119728557_1_alg».proof.Proof.Stretch3

set_option maxRecDepth 16384

noncomputable section

namespace Cert.Sage.KV

open Cert.KernelIdeal Cert.KernelIdeal.Gen Cert.Sage.HostK Cert.Sage
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## After the projection's region -/

/-- The projection's region leaves its output array at the specification's projection of the arguments. -/
theorem proj_out (c : Dev nD) : W1 m ρ c (Proc.devRef .tc main_v0)
    = proj (m ((c : Thread nD τ).loc main_arg0)) (m ((c : Thread nD τ).loc main_arg3)) (m ((c : Thread nD τ).loc main_arg4)) :=
  (W1_arr m ρ c 3).trans (K0.final0 (V0 m ρ) c)

/-- The arguments the region does not touch are as launched. -/
theorem a1_1 (c : Dev nD) : W1 m ρ c (Proc.devRef .tc main_arg1) = m ((c : Thread nD τ).loc main_arg1) := W1_of_ne m ρ c main_arg1 (by decide)
theorem a1_2 (c : Dev nD) : W1 m ρ c (Proc.devRef .tc main_arg2) = m ((c : Thread nD τ).loc main_arg2) := W1_of_ne m ρ c main_arg2 (by decide)
theorem a1_5 (c : Dev nD) : W1 m ρ c (Proc.devRef .tc main_arg5) = m ((c : Thread nD τ).loc main_arg5) := W1_of_ne m ρ c main_arg5 (by decide)
theorem a1_6 (c : Dev nD) : W1 m ρ c (Proc.devRef .tc main_arg6) = m ((c : Thread nD τ).loc main_arg6) := W1_of_ne m ρ c main_arg6 (by decide)
theorem a1_7 (c : Dev nD) : W1 m ρ c (Proc.devRef .tc main_arg7) = m ((c : Thread nD τ).loc main_arg7) := W1_of_ne m ρ c main_arg7 (by decide)

/-! ## After the first layer's region -/

/-- The first layer's region leaves its output array at the specification's layer of the six arrays it was entered with. -/
theorem layer1_out (c : Dev nD) : W3 m ρ c (Proc.devRef .tc main_v26)
    = layer (W2 m ρ c (Proc.devRef .tc main_v0)) (W2 m ρ c (Proc.devRef .tc main_v19)) (W2 m ρ c (Proc.devRef .tc main_v9))
        (W2 m ρ c (Proc.devRef .tc main_v21)) (W2 m ρ c (Proc.devRef .tc main_v23)) (W2 m ρ c (Proc.devRef .tc main_v25)) :=
  (W3_arr m ρ c 6).trans (K1.final1 (V2 m ρ) c)

/-- An input window's array leaves the region as it entered: the inverse in-degree column. -/
theorem idg3 (c : Dev nD) : W3 m ρ c (Proc.devRef .tc main_v9) = invDeg (m ((c : Thread nD τ).loc main_arg2)) :=
  (W3_arr m ρ c 2).trans ((((dat1 (V2 m ρ) c).arrAt_in 2 rfl _).trans (A_eq1 (V2 m ρ) c 2)).trans
    ((Stretch1.idg m ρ c).trans (congrArg invDeg (a1_2 m ρ c))))

theorem a3_1 (c : Dev nD) : W3 m ρ c (Proc.devRef .tc main_arg1) = m ((c : Thread nD τ).loc main_arg1) :=
  (W3_of_ne m ρ c main_arg1 (by decide)).trans ((Stretch1.arg1 m ρ c).trans (a1_1 m ρ c))
theorem a3_2 (c : Dev nD) : W3 m ρ c (Proc.devRef .tc main_arg2) = m ((c : Thread nD τ).loc main_arg2) :=
  (W3_of_ne m ρ c main_arg2 (by decide)).trans ((Stretch1.arg2 m ρ c).trans (a1_2 m ρ c))
theorem a3_5 (c : Dev nD) : W3 m ρ c (Proc.devRef .tc main_arg5) = m ((c : Thread nD τ).loc main_arg5) :=
  (W3_of_ne m ρ c main_arg5 (by decide)).trans ((Stretch1.arg5 m ρ c).trans (a1_5 m ρ c))
theorem a3_6 (c : Dev nD) : W3 m ρ c (Proc.devRef .tc main_arg6) = m ((c : Thread nD τ).loc main_arg6) :=
  (W3_of_ne m ρ c main_arg6 (by decide)).trans ((Stretch1.arg6 m ρ c).trans (a1_6 m ρ c))
theorem a3_7 (c : Dev nD) : W3 m ρ c (Proc.devRef .tc main_arg7) = m ((c : Thread nD τ).loc main_arg7) :=
  (W3_of_ne m ρ c main_arg7 (by decide)).trans ((Stretch1.arg7 m ρ c).trans (a1_7 m ρ c))

/-- The features after the first layer, as the network term of the arguments. -/
theorem feat1_out (c : Dev nD) : W3 m ρ c (Proc.devRef .tc main_v26)
    = feat1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [layer1_out, Stretch1.feat, Stretch1.nsum, Stretch1.idg, Stretch1.wself, Stretch1.wneigh, Stretch1.bias,
    proj_out, a1_1, a1_2, a1_5, a1_6, a1_7]
  rfl

/-! ## After the second layer's region -/

theorem layer2_out (c : Dev nD) : W5 m ρ c (Proc.devRef .tc main_v43)
    = layer (W4 m ρ c (Proc.devRef .tc main_v26)) (W4 m ρ c (Proc.devRef .tc main_v36)) (W4 m ρ c (Proc.devRef .tc main_v9))
        (W4 m ρ c (Proc.devRef .tc main_v38)) (W4 m ρ c (Proc.devRef .tc main_v40)) (W4 m ρ c (Proc.devRef .tc main_v42)) :=
  (W5_arr m ρ c 6).trans (K2.final2 (V4 m ρ) c)

theorem idg5 (c : Dev nD) : W5 m ρ c (Proc.devRef .tc main_v9) = invDeg (m ((c : Thread nD τ).loc main_arg2)) :=
  (W5_arr m ρ c 2).trans ((((dat2 (V4 m ρ) c).arrAt_in 2 rfl _).trans (A_eq2 (V4 m ρ) c 2)).trans
    ((Stretch2.idg m ρ c).trans (idg3 m ρ c)))

theorem a5_1 (c : Dev nD) : W5 m ρ c (Proc.devRef .tc main_arg1) = m ((c : Thread nD τ).loc main_arg1) :=
  (W5_of_ne m ρ c main_arg1 (by decide)).trans ((Stretch2.arg1 m ρ c).trans (a3_1 m ρ c))
theorem a5_2 (c : Dev nD) : W5 m ρ c (Proc.devRef .tc main_arg2) = m ((c : Thread nD τ).loc main_arg2) :=
  (W5_of_ne m ρ c main_arg2 (by decide)).trans ((Stretch2.arg2 m ρ c).trans (a3_2 m ρ c))
theorem a5_5 (c : Dev nD) : W5 m ρ c (Proc.devRef .tc main_arg5) = m ((c : Thread nD τ).loc main_arg5) :=
  (W5_of_ne m ρ c main_arg5 (by decide)).trans ((Stretch2.arg5 m ρ c).trans (a3_5 m ρ c))
theorem a5_6 (c : Dev nD) : W5 m ρ c (Proc.devRef .tc main_arg6) = m ((c : Thread nD τ).loc main_arg6) :=
  (W5_of_ne m ρ c main_arg6 (by decide)).trans ((Stretch2.arg6 m ρ c).trans (a3_6 m ρ c))
theorem a5_7 (c : Dev nD) : W5 m ρ c (Proc.devRef .tc main_arg7) = m ((c : Thread nD τ).loc main_arg7) :=
  (W5_of_ne m ρ c main_arg7 (by decide)).trans ((Stretch2.arg7 m ρ c).trans (a3_7 m ρ c))

/-- The features after the second layer, as the network term of the arguments. -/
theorem feat2_out (c : Dev nD) : W5 m ρ c (Proc.devRef .tc main_v43)
    = feat2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [layer2_out, Stretch2.feat, Stretch2.nsum, Stretch2.idg, Stretch2.wself, Stretch2.wneigh, Stretch2.bias,
    feat1_out, idg3, a3_1, a3_2, a3_5, a3_6, a3_7]
  rfl

/-! ## After the third layer's region: the result -/

theorem layer3_out (c : Dev nD) : W7 m ρ c (Proc.devRef .tc main_v60)
    = layer (W6 m ρ c (Proc.devRef .tc main_v43)) (W6 m ρ c (Proc.devRef .tc main_v53)) (W6 m ρ c (Proc.devRef .tc main_v9))
        (W6 m ρ c (Proc.devRef .tc main_v55)) (W6 m ρ c (Proc.devRef .tc main_v57)) (W6 m ρ c (Proc.devRef .tc main_v59)) :=
  (W7_arr m ρ c 6).trans (K3.final3 (V6 m ρ) c)

/-- The result buffer after the last region is the network term of the arguments. -/
theorem result_out (c : Dev nD) : W7 m ρ c (Proc.devRef .tc main_v60)
    = feat3 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [layer3_out, Stretch3.feat, Stretch3.nsum, Stretch3.idg, Stretch3.wself, Stretch3.wneigh, Stretch3.bias,
    feat2_out, idg5, a5_1, a5_2, a5_5, a5_6, a5_7]
  rfl

/-! ## The run -/

/-- Every weakly fair execution of the kernel's program terminates, nothing faulting, with the result buffer at the
    network term of the arguments and the arguments as launched. -/
theorem run : θ_run (defs (F := Ideal)) (onTc (τ := τ) (main (F := Ideal))) ⟨m, fun _ => 0, ρ⟩ (fun r => ∀ c : Dev nD,
      r.2.mem ((c.tc : Thread nD τ).loc main_v60)
        = feat3 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result_out m ρ c), (h c).2⟩) (Cert.KernelIdeal.Named.run_named m ρ)

end Cert.Sage.KV

end
-- ==== Proof.RefRead.lean ====
/-
  The reference program's run and its stage-by-stage reading, gathered for the modules that compare it with the kernel.
-/
import proofs.«180075_j24988119728557_1_alg».proof.Proof.Gen.ReferenceIdeal.Run
import proofs.«180075_j24988119728557_1_alg».proof.Proof.Gen.ReferenceIdeal.Read
-- ==== Proof.RefStages.lean ====
/-
  The reference program's dense stages, read as the specification's functions over the extended reals.

  The reference works on whole arrays. Its input projection is a matrix product [500000, 117] x [117, 128], the bias
  broadcast along the rows, and tanh. Each of its three layers is two matrix products [500000, 128] x [128, 128] (the node
  features with the self weights; the neighbour sums, scaled row by row by the inverse degree, with the neighbour weights),
  added, plus the bias broadcast along the rows, clipped below at zero. Read at an entry (p, q), each matrix product is the
  finite sum over the contracted coordinate, each broadcast reads its operand at the coordinates it keeps, and the
  elementwise operations act entry by entry: that is the specification's `proj` and `layer`.

  The layer is stated of arbitrary operand arrays, so that it serves all three layers.
-/
import proofs.«180075_j24988119728557_1_alg».proof.Proof.RefRead
import proofs.«180075_j24988119728557_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.Sage.Ref

open Cert.ReferenceIdeal Cert.ReferenceIdeal.Gen Cert.ReferenceIdeal.Read
open Idealize.ShloMosaic Idealize.ShloMosaic.TcCoe Idealize.ShloMosaic.ValueIdx

/-! ## Index functions at coordinates

The generated reading writes the operand indices of a product and of a broadcast as functions of the output index; at an
output index given by its coordinates (p, q) they are the indices with the expected coordinates. -/

/-- Projection product, left operand: row p, contraction coordinate k. -/
theorem lidx_v0_ix2 (p : Fin 500000) (q : Fin 128) (k : Fin 117) : lidx_main_v0 (ix2 p q) k = ix2 p k :=
  funext fun a => Fin.ext (by match a with | ⟨0, _⟩ => rfl | ⟨1, _⟩ => rfl)

/-- Projection product, right operand: contraction coordinate k, column q. -/
theorem ridx_v0_ix2 (p : Fin 500000) (q : Fin 128) (k : Fin 117) : ridx_main_v0 (ix2 p q) k = ix2 k q :=
  funext fun a => Fin.ext (by match a with | ⟨0, _⟩ => rfl | ⟨1, _⟩ => rfl)

/-- The bias broadcast along the rows reads the one-row array at column q ... -/
theorem idx_v2_ix2 (p : Fin 500000) (q : Fin 128) : idx_main_v2 (ix2 p q) = ix2 (0 : Fin 1) q :=
  funext fun a => Fin.ext (by match a with | ⟨0, _⟩ => rfl | ⟨1, _⟩ => rfl)

/-- ... and the one-row array at column q is the bias at q. -/
theorem idx_v1_ix2 (q : Fin 128) : idx_main_v1 (ix2 (0 : Fin 1) q) = ix1 q :=
  funext fun a => Fin.ext (by match a with | ⟨0, _⟩ => rfl)

/-! ## The input projection -/

/-- The reference's input projection (its operations %0 … %4) is the specification's. -/
theorem ref_proj (x0 : (⟨S500000x117, .f32⟩ : BufTy).Contents (Elt Ideal)) (x3 : (⟨S117x128, .f32⟩ : BufTy).Contents (Elt Ideal)) (x4 : (⟨S128, .f32⟩ : BufTy).Contents (Elt Ideal)) :
    val_main_v4 (F := Ideal) x0 x3 x4 = Cert.Sage.proj x0 x3 x4 := by
  funext i
  obtain ⟨p, q, rfl⟩ : ∃ (p : Fin 500000) (q : Fin 128), i = ix2 p q := ⟨i 0, i 1, eq_ix2 i⟩
  rw [val_main_v4_apply, val_main_v3_apply, val_main_v0_apply, val_main_v2_apply, val_main_v1_apply]
  simp only [lidx_v0_ix2, ridx_v0_ix2, idx_v2_ix2, idx_v1_ix2, Ideal.hostUnary_tanh_def, Ideal.addf_def]
  rfl

/-! ## A layer -/

/-- Entry (p, q) of the plain product [500000, 128] x [128, 128] is the sum over k of y0 (p, k) * y1 (k, q). -/
theorem dot_apply (y0 : FVec Ideal S500000x128 .f32) (y1 : FVec Ideal S128x128 .f32) (p : Fin 500000) (q : Fin 128) :
    Host.dotGeneral dot_S500000x128_S128x128_S500000x128_1_0_0_1_n_n none y0 y1 (ix2 p q)
      = ∑ k : Fin 128, y0 (ix2 p k) * y1 (ix2 k q) := by
  simp only [Host.dotGeneral]
  rw [Ideal.dotGeneral_apply, ← Equiv.sum_comp (contrEquiv1 dot_S500000x128_S128x128_S500000x128_1_0_0_1_n_n 128 rfl rfl).symm]
  refine Finset.sum_congr rfl fun k _ => ?_
  have hk := contrEquiv1_symm_val dot_S500000x128_S128x128_S500000x128_1_0_0_1_n_n 128 rfl rfl k
  have el : dot_S500000x128_S128x128_S500000x128_1_0_0_1_n_n.lhsIdx (ix2 p q) ((contrEquiv1 dot_S500000x128_S128x128_S500000x128_1_0_0_1_n_n 128 rfl rfl).symm k) = ix2 p k :=
    funext fun a => Fin.ext (by
      match a with
      | ⟨0, _⟩ => exact lhs_main_v28_0 _ _
      | ⟨1, _⟩ => exact (lhs_main_v28_1 _ _).trans hk)
  have er : dot_S500000x128_S128x128_S500000x128_1_0_0_1_n_n.rhsIdx (ix2 p q) ((contrEquiv1 dot_S500000x128_S128x128_S500000x128_1_0_0_1_n_n 128 rfl rfl).symm k) = ix2 k q :=
    funext fun a => Fin.ext (by
      match a with
      | ⟨0, _⟩ => exact (rhs_main_v28_0 _ _).trans hk
      | ⟨1, _⟩ => exact rhs_main_v28_1 _ _)
  rw [el, er]

/-- The inverse degree broadcast along the columns, at (p, q), is the inverse degree of node p. -/
theorem bcast_idg_apply (idg : FVec Ideal S500000x1 .f32) (p : Fin 500000) (q : Fin 128) :
    broadcastInDim S500000x128 ![0, 1] bcast_S500000x1_S500000x128_0_1 idg (ix2 p q) = idg (ix2 p (0 : Fin 1)) :=
  broadcastInDim_apply _ bcast_S500000x1_S500000x128_0_1 idg (ix2 p q) (ix2 p (0 : Fin 1)) (fun a => match a with
    | ⟨0, _⟩ => by show p.val = if (500000 : Nat) = 1 then 0 else p.val; rw [if_neg (by decide)]
    | ⟨1, _⟩ => by show 0 = if (1 : Nat) = 1 then 0 else q.val; rw [if_pos rfl])

/-- The bias, made a one-row array and broadcast along the rows, at (p, q), is the bias at q. -/
theorem bcast_bias_apply (b : FVec Ideal S128 .f32) (p : Fin 500000) (q : Fin 128) :
    broadcastInDim S500000x128 ![0, 1] bcast_S1x128_S500000x128_0_1 (broadcastInDim S1x128 ![1] bcast_S128_S1x128_1 b) (ix2 p q) = b (ix1 q) := by
  refine (broadcastInDim_apply _ bcast_S1x128_S500000x128_0_1 (broadcastInDim S1x128 ![1] bcast_S128_S1x128_1 b) (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b (ix2 (0 : Fin 1) q) (ix1 q) (fun a => match a with
    | ⟨0, _⟩ => by show q.val = if (128 : Nat) = 1 then 0 else q.val; rw [if_neg (by decide)])

/-- The broadcast zero, at any entry, is zero. -/
theorem bcast_zero_apply (i : S500000x128.Idx) :
    broadcastInDim S500000x128 ![] bcast_S_S500000x128 (constant (F := Ideal) S_ .f32 0x00000000#32) i = 0 := by
  refine (broadcastInDim_apply _ bcast_S_S500000x128 (constant (F := Ideal) S_ .f32 0x00000000#32) i (fun a => a.elim0) (fun a => a.elim0)).trans ?_
  exact Ideal.ofBits_zero_f32

/-- One layer as the reference writes it, of ARBITRARY operand arrays, is the specification's layer. -/
theorem ref_layer (h ns : FVec Ideal S500000x128 .f32) (idg : FVec Ideal S500000x1 .f32) (ws wn : FVec Ideal S128x128 .f32) (b : FVec Ideal S128 .f32) :
    maximumf (addf (addf (Host.dotGeneral dot_S500000x128_S128x128_S500000x128_1_0_0_1_n_n none h ws)
        (Host.dotGeneral dot_S500000x128_S128x128_S500000x128_1_0_0_1_n_n none (mulf ns (broadcastInDim S500000x128 ![0, 1] bcast_S500000x1_S500000x128_0_1 idg)) wn))
        (broadcastInDim S500000x128 ![0, 1] bcast_S1x128_S500000x128_0_1 (broadcastInDim S1x128 ![1] bcast_S128_S1x128_1 b)))
      (broadcastInDim S500000x128 ![] bcast_S_S500000x128 (constant (F := Ideal) S_ .f32 0x00000000#32))
    = Cert.Sage.layer h ns idg ws wn b := by
  funext i
  obtain ⟨p, q, rfl⟩ : ∃ (p : Fin 500000) (q : Fin 128), i = ix2 p q := ⟨i 0, i 1, eq_ix2 i⟩
  have e : ∀ k : Fin 128, mulf ns (broadcastInDim S500000x128 ![0, 1] bcast_S500000x1_S500000x128_0_1 idg) (ix2 p k)
      = ns (ix2 p k) * idg (ix2 p (0 : Fin 1)) := fun k => by rw [mulf_apply, bcast_idg_apply]
  rw [maximumf_apply, addf_apply, addf_apply, dot_apply, dot_apply, bcast_bias_apply, bcast_zero_apply]
  simp only [e]
  rfl

/-! ## The inverse degree as a column -/

/-- Reshaping a vector of 500000 entries into a [500000, 1] column and broadcasting it along axis 0 into that column give
    the same array: entry (p, 0) is the vector's entry p either way. -/
theorem reshape_eq_bcast (v : FVec Ideal S500000 .f32) (hc : S500000.ShapeCasts S500000x1) :
    shapeCast S500000x1 v hc = broadcastInDim S500000x1 ![0] bcast_S500000_S500000x1_0 v := by
  funext i
  have hl : shapeCast S500000x1 v hc i = v (ix1 (i 0)) :=
    shapeCast_apply v hc i (ix1 (i 0))
      (by rewrite [Shape.rowMajor_val_one, Shape.rowMajor_val_two]
          have h1 : (i 1).val < 1 := (i 1).isLt
          show (i 0).val = (i 0).val * 1 + (i 1).val
          omega)
  have hr : broadcastInDim S500000x1 ![0] bcast_S500000_S500000x1_0 v i = v (ix1 (i 0)) :=
    broadcastInDim_apply _ bcast_S500000_S500000x1_0 v i (ix1 (i 0)) (fun a => match a with
      | ⟨0, _⟩ => by show (i 0).val = if (500000 : Nat) = 1 then 0 else (i 0).val; rw [if_neg (by decide)])
  rw [hl, hr]

end Cert.Sage.Ref

end
-- ==== Proof.RefValue.lean ====
/-
  The reference program's whole result is the network term.

  The reference computes the input projection and then three layers. Each layer takes the previous features, their
  neighbour sum (rows gathered at the edges' sources and added up at the edges' destinations), the inverse in-degree
  column, and its own slices of the stacked weights and biases. The dense part of a layer is the specification's `layer`
  of those operands; the sparse and layout operands are the same operations the network term names, written with the
  other program's shape records, which have the same fields. So the result is reached by three applications of the layer
  lemma, each after identifying its operands.

  Where a sparse stage is compared across the two programs, the features it is applied to are kept a variable, so that only
  the index and constant arrays are ever opened.
-/
import proofs.«180075_j24988119728557_1_alg».proof.Proof.RefStages
import proofs.«180075_j24988119728557_1_alg».proof.Proof.NetTerm

noncomputable section

namespace Cert.Sage.Ref

open Cert.ReferenceIdeal Cert.ReferenceIdeal.Gen Cert.ReferenceIdeal.Read
open Idealize.ShloMosaic Idealize.ShloMosaic.TcCoe Idealize.ShloMosaic.ValueIdx

/-! ## The neighbour sum

The reference writes it three times, once per layer, with its own copies of the zero array and of the index arrays. Of any
features `h` each copy is the network term's neighbour sum of `h`. -/

/-- First layer's neighbour sum, of arbitrary features. -/
theorem agg_l0 (h : (⟨S500000x128, .f32⟩ : BufTy).Contents (Elt Ideal)) (x1 x2 : (⟨S2000000, .i32⟩ : BufTy).Contents (Elt Ideal)) :
    (Host.scatterAdd (F := Ideal) (φ := .f32) scatter_S500000x128_S2000000x1_S2000000x128_1_0_0_1 (val_main_v21 (F := Ideal)) (val_main_v22 (F := Ideal) x2)
      (Host.gather gather_S500000x128_S2000000x1_S2000000x128_1_0_n_n_0_1_1128 h (val_main_v19 (F := Ideal) x1))
      : (⟨S500000x128, .f32⟩ : BufTy).Contents (Elt Ideal))
    = HostK.agg h x1 x2 := rfl

/-- Second layer's neighbour sum, of arbitrary features. -/
theorem agg_l1 (h : (⟨S500000x128, .f32⟩ : BufTy).Contents (Elt Ideal)) (x1 x2 : (⟨S2000000, .i32⟩ : BufTy).Contents (Elt Ideal)) :
    (Host.scatterAdd (F := Ideal) (φ := .f32) scatter_S500000x128_S2000000x1_S2000000x128_1_0_0_1 (val_main_v46 (F := Ideal)) (val_main_v47 (F := Ideal) x2)
      (Host.gather gather_S500000x128_S2000000x1_S2000000x128_1_0_n_n_0_1_1128 h (val_main_v44 (F := Ideal) x1))
      : (⟨S500000x128, .f32⟩ : BufTy).Contents (Elt Ideal))
    = HostK.agg h x1 x2 := rfl

/-- Third layer's neighbour sum, of arbitrary features. -/
theorem agg_l2 (h : (⟨S500000x128, .f32⟩ : BufTy).Contents (Elt Ideal)) (x1 x2 : (⟨S2000000, .i32⟩ : BufTy).Contents (Elt Ideal)) :
    (Host.scatterAdd (F := Ideal) (φ := .f32) scatter_S500000x128_S2000000x1_S2000000x128_1_0_0_1 (val_main_v71 (F := Ideal)) (val_main_v72 (F := Ideal) x2)
      (Host.gather gather_S500000x128_S2000000x1_S2000000x128_1_0_n_n_0_1_1128 h (val_main_v69 (F := Ideal) x1))
      : (⟨S500000x128, .f32⟩ : BufTy).Contents (Elt Ideal))
    = HostK.agg h x1 x2 := rfl

section
variable (x0 : (⟨S500000x117, .f32⟩ : BufTy).Contents (Elt Ideal)) (x1 x2 : (⟨S2000000, .i32⟩ : BufTy).Contents (Elt Ideal))
  (x3 : (⟨S117x128, .f32⟩ : BufTy).Contents (Elt Ideal)) (x4 : (⟨S128, .f32⟩ : BufTy).Contents (Elt Ideal))
  (x5 x6 : (⟨S3x128x128, .f32⟩ : BufTy).Contents (Elt Ideal)) (x7 : (⟨S3x128, .f32⟩ : BufTy).Contents (Elt Ideal))

/-- The reference's first neighbour sum is that of its projected features. -/
theorem v23_eq : val_main_v23 (F := Ideal) x0 x1 x2 x3 x4 = HostK.agg (val_main_v4 (F := Ideal) x0 x3 x4) x1 x2 :=
  agg_l0 (val_main_v4 (F := Ideal) x0 x3 x4) x1 x2

/-- The reference's second neighbour sum is that of its first layer's features. -/
theorem v48_eq : val_main_v48 (F := Ideal) x0 x1 x2 x3 x4 x5 x6 x7 = HostK.agg (val_main_v38 (F := Ideal) x0 x1 x2 x3 x4 x5 x6 x7) x1 x2 :=
  agg_l1 (val_main_v38 (F := Ideal) x0 x1 x2 x3 x4 x5 x6 x7) x1 x2

/-- The reference's third neighbour sum is that of its second layer's features. -/
theorem v73_eq : val_main_v73 (F := Ideal) x0 x1 x2 x3 x4 x5 x6 x7 = HostK.agg (val_main_v63 (F := Ideal) x0 x1 x2 x3 x4 x5 x6 x7) x1 x2 :=
  agg_l2 (val_main_v63 (F := Ideal) x0 x1 x2 x3 x4 x5 x6 x7) x1 x2

/-! ## The inverse degree and the slices -/

/-- The reference's inverse-degree column (a vector broadcast along axis 0 into a column) is the network term's (the same
    vector reshaped into a column). -/
theorem v13_eq : val_main_v13 (F := Ideal) x2 = HostK.invDeg x2 := by
  unfold val_main_v13
  rw [← reshape_eq_bcast (val_main_v12 (F := Ideal) x2) Cert.KernelIdeal.Gen.shapeCasts_S500000_S500000x1]
  rfl

/-- Slice 0, 1, 2 of the self weights, of the neighbour weights and of the biases. -/
theorem v27_eq : val_main_v27 (F := Ideal) x5 = HostK.wsl0 x5 := rfl
theorem v30_eq : val_main_v30 (F := Ideal) x6 = HostK.wsl0 x6 := rfl
theorem v34_eq : val_main_v34 (F := Ideal) x7 = HostK.bsl0 x7 := rfl
theorem v52_eq : val_main_v52 (F := Ideal) x5 = HostK.wsl1 x5 := rfl
theorem v55_eq : val_main_v55 (F := Ideal) x6 = HostK.wsl1 x6 := rfl
theorem v59_eq : val_main_v59 (F := Ideal) x7 = HostK.bsl1 x7 := rfl
theorem v77_eq : val_main_v77 (F := Ideal) x5 = HostK.wsl2 x5 := rfl
theorem v80_eq : val_main_v80 (F := Ideal) x6 = HostK.wsl2 x6 := rfl
theorem v84_eq : val_main_v84 (F := Ideal) x7 = HostK.bsl2 x7 := rfl

/-! ## The three layers -/

/-- The reference's features after its first layer. -/
theorem ref_feat1 : val_main_v38 (F := Ideal) x0 x1 x2 x3 x4 x5 x6 x7 = feat1 x0 x1 x2 x3 x4 x5 x6 x7 := by
  refine (ref_layer (val_main_v4 (F := Ideal) x0 x3 x4) (val_main_v23 (F := Ideal) x0 x1 x2 x3 x4) (val_main_v13 (F := Ideal) x2)
    (val_main_v27 (F := Ideal) x5) (val_main_v30 (F := Ideal) x6) (val_main_v34 (F := Ideal) x7)).trans ?_
  unfold feat1 feat0
  rw [v23_eq, ref_proj, v13_eq, v27_eq, v30_eq, v34_eq]

/-- The reference's features after its second layer. -/
theorem ref_feat2 : val_main_v63 (F := Ideal) x0 x1 x2 x3 x4 x5 x6 x7 = feat2 x0 x1 x2 x3 x4 x5 x6 x7 := by
  refine (ref_layer (val_main_v38 (F := Ideal) x0 x1 x2 x3 x4 x5 x6 x7) (val_main_v48 (F := Ideal) x0 x1 x2 x3 x4 x5 x6 x7) (val_main_v13 (F := Ideal) x2)
    (val_main_v52 (F := Ideal) x5) (val_main_v55 (F := Ideal) x6) (val_main_v59 (F := Ideal) x7)).trans ?_
  unfold feat2
  rw [v48_eq, ref_feat1, v13_eq, v52_eq, v55_eq, v59_eq]

/-- The reference's whole result is the network term. -/
theorem ref_value : Cert.ReferenceIdeal.Read.val_main_v88 (F := Ideal) x0 x1 x2 x3 x4 x5 x6 x7 = Cert.Sage.feat3 x0 x1 x2 x3 x4 x5 x6 x7 := by
  refine (ref_layer (val_main_v63 (F := Ideal) x0 x1 x2 x3 x4 x5 x6 x7) (val_main_v73 (F := Ideal) x0 x1 x2 x3 x4 x5 x6 x7) (val_main_v13 (F := Ideal) x2)
    (val_main_v77 (F := Ideal) x5) (val_main_v80 (F := Ideal) x6) (val_main_v84 (F := Ideal) x7)).trans ?_
  unfold feat3
  rw [v73_eq, ref_feat2, v13_eq, v77_eq, v80_eq, v84_eq]

end

end Cert.Sage.Ref

end
-- ==== Proof.lean ====
/-
  A three-layer mean-aggregating graph network over 500000 nodes and 2000000 edges: the kernel's program against the
  whole-array reference, over the extended reals.

  The kernel's program runs four tiled regions — the input projection `tanh (x · W_in + b_in)` and three layers
  `max (h · W_self + (neighbour sum · inverse in-degree) · W_neigh + b) 0`, each on blocks of 5000 rows — and, between them,
  the sparse stages on the host: the in-degree count, the gather of source rows and their sum by destination. The
  reference applies the same sparse stages and computes each dense stage on whole arrays.

  At the exact values a change of float format is the identity and a block's matrix product is the corresponding rows of
  the whole product, a plain finite sum over the contracted axis; no sum is regrouped across terms and no factor is moved
  across a sum, so the two sides agree on all extended reals and finiteness of the inputs is never used. Each region's
  output array is read block by block and shown to be the specification's stage of the arrays the region was entered with;
  the host stretches are read operation by operation; chained from the launch memory this gives the kernel's result as one
  term of the eight arguments (`Cert.Sage.feat3`). The reference's run is read stage by stage to the same term: its dense
  stages are the specification's, its sparse stages are literally the kernel program's, and its broadcast of the inverse
  degree into a column is the kernel program's reshape of it.

  The three frames: the kernel's two programs terminate without fault with the arguments unchanged (the launch of the
  regions and stretches over the block-wise bodies); the reference's frame is its run with the result dropped. The
  idealization rewrote no operation, so `preserves` has nothing to state.
-/
import proofs.«180075_j24988119728557_1_alg».proof.Defs
import proofs.«180075_j24988119728557_1_alg».proof.Proof.Gen.Kernel
import proofs.«180075_j24988119728557_1_alg».proof.Proof.Gen.Kernel.Frame
import proofs.«180075_j24988119728557_1_alg».proof.Proof.Gen.KernelIdeal
import proofs.«180075_j24988119728557_1_alg».proof.Proof.Gen.KernelIdeal.Frame
import proofs.«180075_j24988119728557_1_alg».proof.Proof.Gen.ReferenceIdeal
import proofs.«180075_j24988119728557_1_alg».proof.Proof.Gen.Pre_finite_inputs
import proofs.«180075_j24988119728557_1_alg».proof.Proof.KernelValue
import proofs.«180075_j24988119728557_1_alg».proof.Proof.RefValue

noncomputable section

namespace Cert.Proof

open Idealize.ShloMosaic Idealize.ShloMosaic.TcCoe Idealize.SL.Sem

/-- The kernel's program as printed: it terminates without fault and leaves the arguments as launched. -/
theorem frame_kernel : Cert.frame_Kernel := fun m ρ _ => Cert.Kernel.Gen.frame m ρ

/-- The same of its reading at the exact values. -/
theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with their result array at the network term of the
    arguments: the kernel's by the region-by-region reading, the reference's by the stage-by-stage one. -/
theorem algebraic : Cert.algebraic_KernelIdeal_ReferenceIdeal := by
  intro m ρ m' ρ' _ hagree
  refine ⟨fun c => Cert.Sage.feat3
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.Sage.KV.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v88_eq, Cert.Sage.Ref.ref_value, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
